-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S640000x128 : Shape := ⟨2, ![640000, 128]⟩
abbrev S50000x128 : Shape := ⟨2, ![50000, 128]⟩
abbrev S640000 : Shape := ⟨1, ![640000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S640000x128 : S_.BroadcastsInDim S640000x128 (![] : Fin 0 → Fin S640000x128.rank)
  reducesTo_S640000x128_S_d0_1 : S640000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S640000 : S_.BroadcastsInDim S640000 (![] : Fin 0 → Fin S640000.rank)
  reducesTo_S640000_S_d0 : S640000.ReducesTo [0] S_

variable [Facts]

def fn_part3 {F : FTy → Type} [FloatOps F] (main_v45 : IVec S_ 1) (main_v50 : IVec S640000 1) : IVec S_ 1 :=
  let main_c_19 : IVec S_ 1 := constantI S_ 1 1#1
  let main_v51 : IVec S_ 1 := (fun x v => Host.reduce IntOp.andi x v reducesTo_S640000_S_d0 h_S_) main_v50 main_c_19
  let main_v52 : IVec S_ 1 := andi main_v45 main_v51
  main_v52

def fn_part2 {F : FTy → Type} [FloatOps F] (main_arg2 : IVec S640000 32) (main_arg3 : IVec S640000 32) (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S640000 32 := broadcastInDim S640000 ![] bcast_S_S640000 main_c_14
  let main_v40 : IVec S640000 1 := cmpi .sge main_arg2 main_v39
  let main_c_15 : IVec S_ 32 := constantI S_ 32 50000#32
  let main_v41 : IVec S640000 32 := broadcastInDim S640000 ![] bcast_S_S640000 main_c_15
  let main_v42 : IVec S640000 1 := cmpi .slt main_arg2 main_v41
  let main_v43 : IVec S640000 1 := andi main_v40 main_v42
  let main_c_16 : IVec S_ 1 := constantI S_ 1 1#1
  let main_v44 : IVec S_ 1 := (fun x v => Host.reduce IntOp.andi x v reducesTo_S640000_S_d0 h_S_) main_v43 main_c_16
  let main_v45 : IVec S_ 1 := andi main_v38 main_v44
  let main_c_17 : IVec S_ 32 := constantI S_ 32 0#32
  let main_v46 : IVec S640000 32 := broadcastInDim S640000 ![] bcast_S_S640000 main_c_17
  let main_v47 : IVec S640000 1 := cmpi .sge main_arg3 main_v46
  let main_c_18 : IVec S_ 32 := constantI S_ 32 50000#32
  let main_v48 : IVec S640000 32 := broadcastInDim S640000 ![] bcast_S_S640000 main_c_18
  let main_v49 : IVec S640000 1 := cmpi .slt main_arg3 main_v48
  let main_v50 : IVec S640000 1 := andi main_v47 main_v49
  fn_part3 (F := F) main_v45 main_v50

def fn_part1 {F : FTy → Type} [FloatOps F] (main_arg2 : IVec S640000 32) (main_arg3 : IVec S640000 32) (main_arg6 : FVec F S256x128 .f32) (main_arg7 : FVec F S128 .f32) (main_arg8 : FVec F S128 .f32) (main_arg9 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg3 main_arg9 main_v33

def fn {F : FTy → Type} [FloatOps F] (main_arg0 : FVec F S640000x128 .f32) (main_arg1 : FVec F S50000x128 .f32) (main_arg2 : IVec S640000 32) (main_arg3 : IVec S640000 32) (main_arg4 : FVec F S384x256 .f32) (main_arg5 : FVec F S256 .f32) (main_arg6 : FVec F S256x128 .f32) (main_arg7 : FVec F S128 .f32) (main_arg8 : FVec F S128 .f32) (main_arg9 : FVec F S128 .f32) : IVec S_ 1 :=
  let main_v0 : FVec F S640000x128 .f32 := Host.absf main_arg0
  let main_cst : FVec F S_ .f32 := constant S_ .f32 0x7F800000#32
  let main_v1 : FVec F S640000x128 .f32 := broadcastInDim S640000x128 ![] bcast_S_S640000x128 main_cst
  let main_v2 : IVec S640000x128 1 := cmpf .olt main_v0 main_v1
  let main_c : IVec S_ 1 := constantI S_ 1 1#1
  let main_v3 : IVec S_ 1 := (fun x v => Host.reduce IntOp.andi x v reducesTo_S640000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S384x256 .f32 := Host.absf main_arg4
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg3 main_arg6 main_arg7 main_arg8 main_arg9 main_v13 main_v16
-- ==== Kernel.lean ====
abbrev S640000x128 : Shape := ⟨2, ![640000, 128]⟩
abbrev S50000x128 : Shape := ⟨2, ![50000, 128]⟩
abbrev S640000 : Shape := ⟨1, ![640000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S1x256 : Shape := ⟨2, ![1, 256]⟩
abbrev S1x128 : Shape := ⟨2, ![1, 128]⟩
abbrev S2560x128 : Shape := ⟨2, ![2560, 128]⟩
abbrev S2560x384 : Shape := ⟨2, ![2560, 384]⟩
abbrev S2560x256 : Shape := ⟨2, ![2560, 256]⟩
abbrev S2560 : Shape := ⟨1, ![2560]⟩
abbrev S2560x1 : Shape := ⟨2, ![2560, 1]⟩

abbrev nBuf : Space → Nat
  | .hbm => 65
  | .vmem => 14
  | .smem => 0
  | _ => 0

abbrev bufTy : (tb : Table) → Fin (tcTables nBuf tb) → BufTy
  | .hbm, ⟨0, _⟩ => ⟨S640000x128, .f32⟩
  | .hbm, ⟨1, _⟩ => ⟨S50000x128, .f32⟩
  | .hbm, ⟨2, _⟩ => ⟨S640000, .i32⟩
  | .hbm, ⟨3, _⟩ => ⟨S640000, .i32⟩
  | .hbm, ⟨4, _⟩ => ⟨S384x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S1, .i32⟩
  | .hbm, ⟨19, _⟩ => ⟨S_, .i32⟩
  | .hbm, ⟨20, _⟩ => ⟨S640000x1, .i32⟩
  | .hbm, ⟨21, _⟩ => ⟨S640000x1, .i1⟩
  | .hbm, ⟨22, _⟩ => ⟨S1x1, .i32⟩
  | .hbm, ⟨23, _⟩ => ⟨S640000x1, .i32⟩
  | .hbm, ⟨24, _⟩ => ⟨S640000x1, .i1⟩
  | .hbm, ⟨25, _⟩ => ⟨S640000x1, .i1⟩
  | .hbm, ⟨26, _⟩ => ⟨S_, .i1⟩
  | .hbm, ⟨27, _⟩ => ⟨S640000, .i1⟩
  | .hbm, ⟨28, _⟩ => ⟨S640000x128, .f32⟩
  | .hbm, ⟨29, _⟩ => ⟨S640000x128, .i1⟩
  | .hbm, ⟨30, _⟩ => ⟨S_, .f32⟩
  | .hbm, ⟨31, _⟩ => ⟨S640000x128, .f32⟩
  | .hbm, ⟨32, _⟩ => ⟨S640000x128, .f32⟩
  | .hbm, ⟨33, _⟩ => ⟨S640000x128, .bf16⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S1, .i32⟩
  | .hbm, ⟨43, _⟩ => ⟨S_, .i32⟩
  | .hbm, ⟨44, _⟩ => ⟨S640000x1, .i32⟩
  | .hbm, ⟨45, _⟩ => ⟨S640000x1, .i1⟩
  | .hbm, ⟨46, _⟩ => ⟨S1x1, .i32⟩
  | .hbm, ⟨47, _⟩ => ⟨S640000x1, .i32⟩
  | .hbm, ⟨48, _⟩ => ⟨S640000x1, .i1⟩
  | .hbm, ⟨49, _⟩ => ⟨S640000x1, .i1⟩
  | .hbm, ⟨50, _⟩ => ⟨S_, .i1⟩
  | .hbm, ⟨51, _⟩ => ⟨S640000, .i1⟩
  | .hbm, ⟨52, _⟩ => ⟨S640000x128, .f32⟩
  | .hbm, ⟨53, _⟩ => ⟨S640000x128, .i1⟩
  | .hbm, ⟨54, _⟩ => ⟨S_, .f32⟩
  | .hbm, ⟨55, _⟩ => ⟨S640000x128, .f32⟩
  | .hbm, ⟨56, _⟩ => ⟨S640000x128, .f32⟩
  | .hbm, ⟨57, _⟩ => ⟨S640000x128, .bf16⟩
  | .hbm, ⟨58, _⟩ => ⟨S384x256, .bf16⟩
  | .hbm, ⟨59, _⟩ => ⟨S256x128, .bf16⟩
  | .hbm, ⟨60, _⟩ => ⟨S1x256, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S640000x128, .f32⟩
  | .local _ .vmem, ⟨0, _⟩ => ⟨S2560x128, .f32⟩
  | .local _ .vmem, ⟨1, _⟩ => ⟨S2560x128, .f32⟩
  | .local _ .vmem, ⟨2, _⟩ => ⟨S2560x128, .bf16⟩
  | .local _ .vmem, ⟨3, _⟩ => ⟨S2560x128, .bf16⟩
  | .local _ .vmem, ⟨4, _⟩ => ⟨S2560x128, .bf16⟩
  | .local _ .vmem, ⟨5, _⟩ => ⟨S2560x128, .bf16⟩
  | .local _ .vmem, ⟨6, _⟩ => ⟨S384x256, .bf16⟩
  | .local _ .vmem, ⟨7, _⟩ => ⟨S1x256, .f32⟩
  | .local _ .vmem, ⟨8, _⟩ => ⟨S256x128, .bf16⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2560x128, .f32⟩
  | .local _ .vmem, ⟨13, _⟩ => ⟨S2560x128, .f32⟩
  | _, _ => ⟨S640000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_v1 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2560x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bitsLt_bf16_f32 : FTy.bits .bf16 < FTy.bits .f32
  shapeCasts_S256_S1x256 : S256.ShapeCasts S1x256
  shapeCasts_S128_S1x128 : S128.ShapeCasts S1x128
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  concatenates_S2560x128_S2560x128_S2560x128_S2560x384_d1 : Shape.Concatenates [S2560x128, S2560x128, S2560x128] S2560x384 1
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2560x256 : S1x256.Broadcasts S2560x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2560x128 : S1x128.Broadcasts S2560x128
  reduces_S2560x128_S2560 : S2560x128.Reduces [1] S2560
  shapeCasts_S2560_S2560x1 : S2560.ShapeCasts S2560x1
  broadcasts_S2560x1_S2560x128 : S2560x1.Broadcasts S2560x128
  gather_S50000x128_S640000x1_S640000x128_1_0_n_n_0_1_1128_wf : GatherDims.WF S50000x128 S640000x1 S640000x128 [1] [0] [] [0] [] 1 ![1, 128]
  dot_S2560x384_S384x256_S2560x256_1_0_0_1_n_n_wf : DotDims.WF S2560x384 S384x256 S2560x256 [1] [0] [0] [1] [] []
  dot_S2560x256_S256x128_S2560x128_1_0_0_1_n_n_wf : DotDims.WF S2560x256 S256x128 S2560x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x128.size a ≤ S640000x128.size a
  hwx0_0 : ∀ i : grid0.Coords, EltTy.bits .f32 = 32 ∨ (Rect.block (s := S640000x128) S2560x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x128.size a ≤ S640000x128.size a
  hwx0_1 : ∀ i : grid0.Coords, EltTy.bits .bf16 = 32 ∨ (Rect.block (s := S640000x128) S2560x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2560x128.size a ≤ S640000x128.size a
  hwx0_2 : ∀ i : grid0.Coords, EltTy.bits .bf16 = 32 ∨ (Rect.block (s := S640000x128) S2560x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x256.size a ≤ S384x256.size a
  hwx0_3 : ∀ i : grid0.Coords, EltTy.bits .bf16 = 32 ∨ (Rect.block (s := S384x256) S384x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2560x128.size a ≤ S640000x128.size a
  hwx0_9 : ∀ i : grid0.Coords, EltTy.bits .f32 = 32 ∨ (Rect.block (s := S640000x128) S2560x128.size (cc0_transform_9 i) (hinb0_9 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S2560x384_S384x256_S2560x256_1_0_0_1_n_n : DotDims S2560x384 S384x256 S2560x256 where
  lhsContracting := [1]
  rhsContracting := [0]
  lhsNonContracting := [0]
  rhsNonContracting := [1]
  lhsBatch := []
  rhsBatch := []
  wf := dot_S2560x384_S384x256_S2560x256_1_0_0_1_n_n_wf
def dot_S2560x256_S256x128_S2560x128_1_0_0_1_n_n : DotDims S2560x256 S256x128 S2560x128 where
  lhsContracting := [1]
  rhsContracting := [0]
  lhsNonContracting := [0]
  rhsNonContracting := [1]
  lhsBatch := []
  rhsBatch := []
  wf := dot_S2560x256_S256x128_S2560x128_1_0_0_1_n_n_wf

abbrev win0_0 : Pipeline.Window sig grid0 :=
  Pipeline.Window.ofSpec (Memref.whole main_arg0) S2560x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2560x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2560x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S384x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S2560x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S640000x128 : Shape := ⟨2, ![640000, 128]⟩
abbrev S50000x128 : Shape := ⟨2, ![50000, 128]⟩
abbrev S640000 : Shape := ⟨1, ![640000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S_ : Shape := ⟨0, ![]⟩
abbrev S640000x1 : Shape := ⟨2, ![640000, 1]⟩
abbrev S640000x384 : Shape := ⟨2, ![640000, 384]⟩
abbrev S640000x256 : Shape := ⟨2, ![640000, 256]⟩
abbrev S1x256 : Shape := ⟨2, ![1, 256]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S640000x128, .f32⟩
  | .hbm, ⟨1, _⟩ => ⟨S50000x128, .f32⟩
  | .hbm, ⟨2, _⟩ => ⟨S640000, .i32⟩
  | .hbm, ⟨3, _⟩ => ⟨S640000, .i32⟩
  | .hbm, ⟨4, _⟩ => ⟨S384x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S640000x384, .f32⟩
  | .hbm, ⟨29, _⟩ => ⟨S640000x256, .f32⟩
  | .hbm, ⟨30, _⟩ => ⟨S1x256, .f32⟩
  | .hbm, ⟨31, _⟩ => ⟨S640000x256, .f32⟩
  | .hbm, ⟨32, _⟩ => ⟨S640000x256, .f32⟩
  | .hbm, ⟨33, _⟩ => ⟨S640000x256, .f32⟩
  | .hbm, ⟨34, _⟩ => ⟨S640000x256, .f32⟩
  | .hbm, ⟨35, _⟩ => ⟨S_, .f32⟩
  | .hbm, ⟨36, _⟩ => ⟨S640000x256, .f32⟩
  | .hbm, ⟨37, _⟩ => ⟨S640000x256, .f32⟩
  | .hbm, ⟨38, _⟩ => ⟨S_, .f32⟩
  | .hbm, ⟨39, _⟩ => ⟨S640000x256, .f32⟩
  | .hbm, ⟨40, _⟩ => ⟨S640000x256, .f32⟩
  | .hbm, ⟨41, _⟩ => ⟨S640000x256, .f32⟩
  | .hbm, ⟨42, _⟩ => ⟨S640000x128, .f32⟩
  | .hbm, ⟨43, _⟩ => ⟨S1x128, .f32⟩
  | .hbm, ⟨44, _⟩ => ⟨S640000x128, .f32⟩
  | .hbm, ⟨45, _⟩ => ⟨S640000x128, .f32⟩
  | .hbm, ⟨46, _⟩ => ⟨S_, .f32⟩
  | .hbm, ⟨47, _⟩ => ⟨S640000, .f32⟩
  | .hbm, ⟨48, _⟩ => ⟨S640000x1, .f32⟩
  | .hbm, ⟨49, _⟩ => ⟨S_, .f32⟩
  | .hbm, ⟨50, _⟩ => ⟨S640000x1, .f32⟩
  | .hbm, ⟨51, _⟩ => ⟨S640000x1, .f32⟩
  | .hbm, ⟨52, _⟩ => ⟨S640000x128, .f32⟩
  | .hbm, ⟨53, _⟩ => ⟨S640000x128, .f32⟩
  | .hbm, ⟨54, _⟩ => ⟨S640000x128, .f32⟩
  | .hbm, ⟨55, _⟩ => ⟨S_, .f32⟩
  | .hbm, ⟨56, _⟩ => ⟨S640000, .f32⟩
  | .hbm, ⟨57, _⟩ => ⟨S640000x1, .f32⟩
  | .hbm, ⟨58, _⟩ => ⟨S_, .f32⟩
  | .hbm, ⟨59, _⟩ => ⟨S640000x1, .f32⟩
  | .hbm, ⟨60, _⟩ => ⟨S640000x1, .f32⟩
  | .hbm, ⟨61, _⟩ => ⟨S640000x128, .f32⟩
  | .hbm, ⟨62, _⟩ => ⟨S640000x128, .f32⟩
  | .hbm, ⟨63, _⟩ => ⟨S_, .f32⟩
  | .hbm, ⟨64, _⟩ => ⟨S640000x1, .f32⟩
  | .hbm, ⟨65, _⟩ => ⟨S640000x1, .f32⟩
  | .hbm, ⟨66, _⟩ => ⟨S640000x1, .f32⟩
  | .hbm, ⟨67, _⟩ => ⟨S640000x128, .f32⟩
  | .hbm, ⟨68, _⟩ => ⟨S640000x128, .f32⟩
  | .hbm, ⟨69, _⟩ => ⟨S1x128, .f32⟩
  | .hbm, ⟨70, _⟩ => ⟨S640000x128, .f32⟩
  | .hbm, ⟨71, _⟩ => ⟨S640000x128, .f32⟩
  | .hbm, ⟨72, _⟩ => ⟨S1x128, .f32⟩
  | .hbm, ⟨73, _⟩ => ⟨S640000x128, .f32⟩
  | .hbm, ⟨74, _⟩ => ⟨S640000x128, .f32⟩
  | _, _ => ⟨S640000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S256_S1x256_1 : S256.BroadcastsInDim S1x256 (![1] : Fin 1 → Fin S1x256.rank)
  bcast_S1x256_S640000x256_0_1 : S1x256.BroadcastsInDim S640000x256 (![0, 1] : Fin 2 → Fin S640000x256.rank)
  bcast_S_S640000x256 : S_.BroadcastsInDim S640000x256 (![] : Fin 0 → Fin S640000x256.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  reducesTo_S640000x128_S640000_d1 : S640000x128.ReducesTo [1] S640000
  h_S_ : 0 < S_.numel
  bcast_S_S640000x1 : S_.BroadcastsInDim S640000x1 (![] : Fin 0 → Fin S640000x1.rank)
  bcast_S640000x1_S640000x128_0_1 : S640000x1.BroadcastsInDim S640000x128 (![0, 1] : Fin 2 → Fin S640000x128.rank)
  gather_S50000x128_S640000x1_S640000x128_1_0_n_n_0_1_1128_wf : GatherDims.WF S50000x128 S640000x1 S640000x128 [1] [0] [] [0] [] 1 ![1, 128]
  dot_S640000x384_S384x256_S640000x256_1_0_0_1_n_n_wf : DotDims.WF S640000x384 S384x256 S640000x256 [1] [0] [0] [1] [] []
  dot_S640000x256_S256x128_S640000x128_1_0_0_1_n_n_wf : DotDims.WF S640000x256 S256x128 S640000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x384_S384x256_S640000x256_1_0_0_1_n_n : DotDims S640000x384 S384x256 S640000x256 where
  lhsContracting := [1]
  rhsContracting := [0]
  lhsNonContracting := [0]
  rhsNonContracting := [1]
  lhsBatch := []
  rhsBatch := []
  wf := dot_S640000x384_S384x256_S640000x256_1_0_0_1_n_n_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf

class Facts : Prop extends Facts₀ where

variable [Facts]
-- ==== Proof.RowSpec.lean ====
/-
  ONE EDGE'S ROW. Both programs compute, for each edge e, the same function of three 128-wide rows — the edge's own
  features, the source node's and the destination node's — and of the layer's parameters:

    c      = the three rows laid end to end (384 entries)
    h u    = (∑ k, c k · W1 k u) + b1 u                     (256 entries)
    a u    = h u · logistic (h u)                           (SiLU)
    y j    = (∑ u, a u · W2 u j) + b2 j                     (128 entries)
    μ      = (∑ j, y j) / 128
    v      = (∑ j, (y j − μ)²) / 128
    out j  = (y j − μ) · rsqrt (v + ε) · γ j + β j          (LayerNorm over the row)

  read on the extended reals, every operation the exact one. Nothing here needs finiteness: the two programs apply the
  same operations in the same order, so no law of arithmetic is used beyond 0 + x = x. The two float words 128.0 and ε
  are kept as words: each program carries the same word, and its value is never needed.
  Also here: a concatenation of three [n × 128] arrays along the second axis, read at (e, k), for any number of rows n.
-/
import Idealize.ShloMosaic.Lib.ValueIdx
import Idealize.ShloMosaic.Lib.Pipeline.Value
import Idealize.ShloMosaic.PureOps.Ideal.Laws

open scoped BigOperators

noncomputable section

namespace Cert.EdgeRow

open Idealize.ShloMosaic Idealize.ShloMosaic.ValueIdx

/-- Three 128-wide rows laid end to end: entry k comes from the first row below 128, from the second below 256, from
    the third from there on. -/
def catRow (x s d : Fin 128 → EReal) (k : Fin 384) : EReal :=
  if h : k.val < 128 then x ⟨k.val, h⟩
  else if h' : k.val < 256 then s ⟨k.val - 128, by omega⟩
  else d ⟨k.val - 256, by omega⟩

/-- The first linear layer at hidden unit u. -/
def layer1 (c : Fin 384 → EReal) (W1 : Fin 384 → Fin 256 → EReal) (b1 : Fin 256 → EReal) (u : Fin 256) : EReal :=
  (∑ k : Fin 384, c k * W1 k u) + b1 u

/-- SiLU: x · logistic x. -/
def silu (x : EReal) : EReal := x * Ideal.logistic x

/-- The second linear layer at output column j, over the activated hidden units. -/
def layer2 (c : Fin 384 → EReal) (W1 : Fin 384 → Fin 256 → EReal) (b1 : Fin 256 → EReal)
    (W2 : Fin 256 → Fin 128 → EReal) (b2 : Fin 128 → EReal) (j : Fin 128) : EReal :=
  (∑ u : Fin 256, silu (layer1 c W1 b1 u) * W2 u j) + b2 j

/-- The mean of a 128-wide row: its sum divided by the float 128.0. -/
def rowMean (y : Fin 128 → EReal) : EReal := Ideal.div (∑ j : Fin 128, y j) (Ideal.ofBits .f32 0x43000000#32)

/-- A row less its mean. -/
def centred (y : Fin 128 → EReal) (j : Fin 128) : EReal := y j - rowMean y

/-- LayerNorm of a row at column j: the centred entry times rsqrt (variance + ε), scaled by γ j and shifted by β j;
    the variance is the mean of the centred entries' squares, ε the float 1e-5. -/
def layerNorm (y γ β : Fin 128 → EReal) (j : Fin 128) : EReal :=
  centred y j * Ideal.rsqrt (rowMean (fun q => centred y q * centred y q) + Ideal.ofBits .f32 0x3727C5AC#32) * γ j + β j

/-- What either program leaves at column j of an edge's output row, from the edge's concatenated row c. -/
def rowOut (c : Fin 384 → EReal) (W1 : Fin 384 → Fin 256 → EReal) (b1 : Fin 256 → EReal)
    (W2 : Fin 256 → Fin 128 → EReal) (b2 γ β : Fin 128 → EReal) (j : Fin 128) : EReal :=
  layerNorm (layer2 c W1 b1 W2 b2) γ β j

/-- A concatenation of three [n × 128] arrays along axis 1, read at (e, k): the concatenated row of the three arrays'
    rows e. -/
theorem concat3_apply {n : Nat} (x0 x1 x2 : (⟨2, ![n, 128]⟩ : Shape).Idx → EReal)
    (h : Shape.Concatenates
      (([⟨⟨2, ![n, 128]⟩, x0⟩, ⟨⟨2, ![n, 128]⟩, x1⟩, ⟨⟨2, ![n, 128]⟩, x2⟩] : List ((s : Shape) × (s.Idx → EReal))).map (·.1))
      ⟨2, ![n, 384]⟩ 1)
    (e : Fin n) (k : Fin 384) :
    concatenate ⟨2, ![n, 384]⟩ 1 [⟨⟨2, ![n, 128]⟩, x0⟩, ⟨⟨2, ![n, 128]⟩, x1⟩, ⟨⟨2, ![n, 128]⟩, x2⟩] h (ix2 e k)
      = catRow (fun q => x0 (ix2 e q)) (fun q => x1 (ix2 e q)) (fun q => x2 (ix2 e q)) k := by
  have hk := k.isLt
  unfold catRow
  split
  · next h0 =>
    refine concatenate_apply_piece (1 : Fin 2) _ h (ix2 e k) 0 (by simp) ⟨2, ![n, 128]⟩ x0 rfl rfl 0 rfl
      (ix2 e ⟨k.val, h0⟩) ?_ ?_
    · intro b hb
      match b with
      | ⟨0, _⟩ => rfl
      | ⟨1, _⟩ => exact absurd rfl hb
    · show 0 + k.val = k.val
      omega
  · next h0 =>
    split
    · next h1 =>
      refine concatenate_apply_piece (1 : Fin 2) _ h (ix2 e k) 1 (by simp) ⟨2, ![n, 128]⟩ x1 rfl rfl 128 rfl
        (ix2 e ⟨k.val - 128, by omega⟩) ?_ ?_
      · intro b hb
        match b with
        | ⟨0, _⟩ => rfl
        | ⟨1, _⟩ => exact absurd rfl hb
      · show 128 + (k.val - 128) = k.val
        omega
    · next h1 =>
      refine concatenate_apply_piece (1 : Fin 2) _ h (ix2 e k) 2 (by simp) ⟨2, ![n, 128]⟩ x2 rfl rfl 256 rfl
        (ix2 e ⟨k.val - 256, by omega⟩) ?_ ?_
      · intro b hb
        match b with
        | ⟨0, _⟩ => rfl
        | ⟨1, _⟩ => exact absurd rfl hb
      · show 256 + (k.val - 256) = k.val
        omega

end Cert.EdgeRow

end
-- ==== Proof.KernelRow.lean ====
/-
  THE KERNEL'S BLOCK, ROW BY ROW. At a grid point the body loads a [2560 × 128] block of edge features, the two
  [2560 × 128] blocks of gathered node rows, and the parameters whole; it lays the three blocks side by side, multiplies
  by W1 into a zero accumulator, adds b1, applies x · logistic x, multiplies by W2 into a zero accumulator, adds b2, and
  normalises each row. Read at (p, j) its stored block is `Cert.EdgeRow.rowOut` of row p's concatenated row: a matmul
  into a zero accumulator is the sum over the contracted axis, a lane reduction from the zero word the sum over the row,
  a broadcast of a [1 × n] row reads it at the column and of a [2560 × 1] column at the row, and a change of float
  format is the identity on the extended reals.
-/
import proofs.«427568_j20486994002443_3_alg».proof.Proof.Gen.KernelIdeal.Value
import proofs.«427568_j20486994002443_3_alg».proof.Proof.RowSpec

open scoped BigOperators

noncomputable section

namespace Cert.KernelIdeal.KernelRow

open Cert.KernelIdeal Cert.KernelIdeal.Gen Cert.KernelIdeal.Value Idealize.ShloMosaic Idealize.ShloMosaic.TcCoe
  Idealize.SL.Sem Idealize.ShloMosaic.ValueIdx Cert.EdgeRow

/-! ## The operations that are not pointwise, read at an index -/

theorem lhsA_0 (i : S2560x256.Idx) (q : dot_S2560x384_S384x256_S2560x256_1_0_0_1_n_n.contr.Idx) :
    (dot_S2560x384_S384x256_S2560x256_1_0_0_1_n_n.lhsIdx i q 0).val = (i 0).val := by
  unfold DotDims.lhsIdx
  rw [dif_neg (show ¬(0 : Fin S2560x384.rank) ∈ dot_S2560x384_S384x256_S2560x256_1_0_0_1_n_n.lhsBatch by decide), dif_pos (show (0 : Fin S2560x384.rank) ∈ dot_S2560x384_S384x256_S2560x256_1_0_0_1_n_n.lhsNonContracting by decide)]
  rfl
theorem lhsA_1 (i : S2560x256.Idx) (q : dot_S2560x384_S384x256_S2560x256_1_0_0_1_n_n.contr.Idx) :
    (dot_S2560x384_S384x256_S2560x256_1_0_0_1_n_n.lhsIdx i q 1).val = (q ⟨0, by decide⟩).val :=
  dot_S2560x384_S384x256_S2560x256_1_0_0_1_n_n.lhsIdx_val_of_single rfl i q
theorem rhsA_0 (i : S2560x256.Idx) (q : dot_S2560x384_S384x256_S2560x256_1_0_0_1_n_n.contr.Idx) :
    (dot_S2560x384_S384x256_S2560x256_1_0_0_1_n_n.rhsIdx i q 0).val = (q ⟨0, by decide⟩).val :=
  dot_S2560x384_S384x256_S2560x256_1_0_0_1_n_n.rhsIdx_val_of_single rfl i q
theorem rhsA_1 (i : S2560x256.Idx) (q : dot_S2560x384_S384x256_S2560x256_1_0_0_1_n_n.contr.Idx) :
    (dot_S2560x384_S384x256_S2560x256_1_0_0_1_n_n.rhsIdx i q 1).val = (i 1).val := by
  unfold DotDims.rhsIdx
  rw [dif_neg (show ¬(1 : Fin S384x256.rank) ∈ dot_S2560x384_S384x256_S2560x256_1_0_0_1_n_n.rhsBatch by decide), dif_pos (show (1 : Fin S384x256.rank) ∈ dot_S2560x384_S384x256_S2560x256_1_0_0_1_n_n.rhsNonContracting by decide)]
  rfl

theorem lhsB_0 (i : S2560x128.Idx) (q : dot_S2560x256_S256x128_S2560x128_1_0_0_1_n_n.contr.Idx) :
    (dot_S2560x256_S256x128_S2560x128_1_0_0_1_n_n.lhsIdx i q 0).val = (i 0).val := by
  unfold DotDims.lhsIdx
  rw [dif_neg (show ¬(0 : Fin S2560x256.rank) ∈ dot_S2560x256_S256x128_S2560x128_1_0_0_1_n_n.lhsBatch by decide), dif_pos (show (0 : Fin S2560x256.rank) ∈ dot_S2560x256_S256x128_S2560x128_1_0_0_1_n_n.lhsNonContracting by decide)]
  rfl
theorem lhsB_1 (i : S2560x128.Idx) (q : dot_S2560x256_S256x128_S2560x128_1_0_0_1_n_n.contr.Idx) :
    (dot_S2560x256_S256x128_S2560x128_1_0_0_1_n_n.lhsIdx i q 1).val = (q ⟨0, by decide⟩).val :=
  dot_S2560x256_S256x128_S2560x128_1_0_0_1_n_n.lhsIdx_val_of_single rfl i q
theorem rhsB_0 (i : S2560x128.Idx) (q : dot_S2560x256_S256x128_S2560x128_1_0_0_1_n_n.contr.Idx) :
    (dot_S2560x256_S256x128_S2560x128_1_0_0_1_n_n.rhsIdx i q 0).val = (q ⟨0, by decide⟩).val :=
  dot_S2560x256_S256x128_S2560x128_1_0_0_1_n_n.rhsIdx_val_of_single rfl i q
theorem rhsB_1 (i : S2560x128.Idx) (q : dot_S2560x256_S256x128_S2560x128_1_0_0_1_n_n.contr.Idx) :
    (dot_S2560x256_S256x128_S2560x128_1_0_0_1_n_n.rhsIdx i q 1).val = (i 1).val := by
  unfold DotDims.rhsIdx
  rw [dif_neg (show ¬(1 : Fin S256x128.rank) ∈ dot_S2560x256_S256x128_S2560x128_1_0_0_1_n_n.rhsBatch by decide), dif_pos (show (1 : Fin S256x128.rank) ∈ dot_S2560x256_S256x128_S2560x128_1_0_0_1_n_n.rhsNonContracting by decide)]
  rfl

/-- The first matmul, into the zero accumulator, at (p, u): row p of the left operand against column u of the right. -/
theorem matmulA_at (L : FVec Ideal S2560x384 .bf16) (R : FVec Ideal S384x256 .bf16) (p : Fin 2560) (u : Fin 256) :
    matmul dot_S2560x384_S384x256_S2560x256_1_0_0_1_n_n none L R (constant (F := Ideal) S2560x256 .f32 0x00000000#32) (ix2 p u)
      = ∑ k : Fin 384, L (ix2 p k) * R (ix2 k u) := by
  simp only [matmul]
  rw [Ideal.matmul_constant_zero_apply, ← Equiv.sum_comp (ValueIdx.contrEquiv1 dot_S2560x384_S384x256_S2560x256_1_0_0_1_n_n 384 rfl rfl).symm]
  refine Finset.sum_congr rfl fun k _ => ?_
  have hk := ValueIdx.contrEquiv1_symm_val dot_S2560x384_S384x256_S2560x256_1_0_0_1_n_n 384 rfl rfl k
  have el : dot_S2560x384_S384x256_S2560x256_1_0_0_1_n_n.lhsIdx (ix2 p u) ((ValueIdx.contrEquiv1 dot_S2560x384_S384x256_S2560x256_1_0_0_1_n_n 384 rfl rfl).symm k) = ix2 p k := funext fun a => Fin.ext (by
    match a with
    | ⟨0, _⟩ => exact lhsA_0 _ _
    | ⟨1, _⟩ => exact (lhsA_1 _ _).trans hk)
  have er : dot_S2560x384_S384x256_S2560x256_1_0_0_1_n_n.rhsIdx (ix2 p u) ((ValueIdx.contrEquiv1 dot_S2560x384_S384x256_S2560x256_1_0_0_1_n_n 384 rfl rfl).symm k) = ix2 k u := funext fun a => Fin.ext (by
    match a with
    | ⟨0, _⟩ => exact (rhsA_0 _ _).trans hk
    | ⟨1, _⟩ => exact rhsA_1 _ _)
  rw [el, er]

/-- The second matmul, into the zero accumulator, at (p, j). -/
theorem matmulB_at (L : FVec Ideal S2560x256 .bf16) (R : FVec Ideal S256x128 .bf16) (p : Fin 2560) (u : Fin 128) :
    matmul dot_S2560x256_S256x128_S2560x128_1_0_0_1_n_n none L R (constant (F := Ideal) S2560x128 .f32 0x00000000#32) (ix2 p u)
      = ∑ k : Fin 256, L (ix2 p k) * R (ix2 k u) := by
  simp only [matmul]
  rw [Ideal.matmul_constant_zero_apply, ← Equiv.sum_comp (ValueIdx.contrEquiv1 dot_S2560x256_S256x128_S2560x128_1_0_0_1_n_n 256 rfl rfl).symm]
  refine Finset.sum_congr rfl fun k _ => ?_
  have hk := ValueIdx.contrEquiv1_symm_val dot_S2560x256_S256x128_S2560x128_1_0_0_1_n_n 256 rfl rfl k
  have el : dot_S2560x256_S256x128_S2560x128_1_0_0_1_n_n.lhsIdx (ix2 p u) ((ValueIdx.contrEquiv1 dot_S2560x256_S256x128_S2560x128_1_0_0_1_n_n 256 rfl rfl).symm k) = ix2 p k := funext fun a => Fin.ext (by
    match a with
    | ⟨0, _⟩ => exact lhsB_0 _ _
    | ⟨1, _⟩ => exact (lhsB_1 _ _).trans hk)
  have er : dot_S2560x256_S256x128_S2560x128_1_0_0_1_n_n.rhsIdx (ix2 p u) ((ValueIdx.contrEquiv1 dot_S2560x256_S256x128_S2560x128_1_0_0_1_n_n 256 rfl rfl).symm k) = ix2 k u := funext fun a => Fin.ext (by
    match a with
    | ⟨0, _⟩ => exact (rhsB_0 _ _).trans hk
    | ⟨1, _⟩ => exact rhsB_1 _ _)
  rw [el, er]

/-- A lane reduction by addition from the zero word, at row p: the sum over the row. -/
theorem rowSum_at (v : FVec Ideal S2560x128 .f32) (hacc : (0x00000000#32 : BitVec 32) = 0x00000000#32) (p : Fin 2560) :
    multiReduction .add [1] S2560 v 0x00000000#32 reduces_S2560x128_S2560 (.inl rfl) hacc (ix1 p)
      = ∑ j : Fin 128, v (ix2 p j) := by
  refine (Ideal.multiReduction_add_single v 0x00000000#32 reduces_S2560x128_S2560 (.inl rfl) hacc (ix1 p)).trans ?_
  refine Finset.sum_congr rfl fun k _ => congrArg v (funext fun a => Fin.ext ?_)
  match a with
  | ⟨0, _⟩ => rfl
  | ⟨1, _⟩ => rfl

/-- The [1 × 256] bias row broadcast down the rows, at (p, u): the row at column u. -/
theorem biasRow256_at (v : Vec Ideal S1x256 .f32) (p : Fin 2560) (u : Fin 256) :
    broadcastTo S2560x256 (shapeCast S1x256 v shapeCasts_S1x256_S1x256) broadcasts_S1x256_S2560x256 (ix2 p u)
      = v (ix2 (0 : Fin 1) u) := by
  rw [shapeCast_self]
  exact broadcastTo_apply _ _ (ix2 p u) (ix2 (0 : Fin 1) u) (fun a => match a with
    | ⟨0, _⟩ => by show 0 = (if (1 : Nat) = 1 then 0 else p.val); rw [if_pos rfl]
    | ⟨1, _⟩ => by show u.val = (if (256 : Nat) = 1 then 0 else u.val); rw [if_neg (by decide)])

/-- A [1 × 128] parameter row broadcast down the rows, at (p, j): the row at column j. -/
theorem paramRow128_at (v : Vec Ideal S1x128 .f32) (p : Fin 2560) (j : Fin 128) :
    broadcastTo S2560x128 (shapeCast S1x128 v shapeCasts_S1x128_S1x128) broadcasts_S1x128_S2560x128 (ix2 p j)
      = v (ix2 (0 : Fin 1) j) := by
  rw [shapeCast_self]
  exact broadcastTo_apply _ _ (ix2 p j) (ix2 (0 : Fin 1) j) (fun a => match a with
    | ⟨0, _⟩ => by show 0 = (if (1 : Nat) = 1 then 0 else p.val); rw [if_pos rfl]
    | ⟨1, _⟩ => by show j.val = (if (128 : Nat) = 1 then 0 else j.val); rw [if_neg (by decide)])

/-- A per-row value divided by a scalar, kept as a [2560 × 1] column and broadcast along the row, at (p, q): the row's
    value over the scalar. -/
theorem colOver_at (w : FVec Ideal S2560 .f32) (c : Ideal .f32) (p : Fin 2560) (q : Fin 128) :
    broadcastTo S2560x128 (divf (shapeCast S2560x1 w shapeCasts_S2560_S2560x1) (broadcast S2560x1 c)) broadcasts_S2560x1_S2560x128 (ix2 p q)
      = Ideal.div (w (ix1 p)) c := by
  refine (broadcastTo_apply _ _ (ix2 p q) (ix2 p (0 : Fin 1)) (fun a => match a with
    | ⟨0, _⟩ => by show p.val = (if (2560 : Nat) = 1 then 0 else p.val); rw [if_neg (by decide)]
    | ⟨1, _⟩ => by show 0 = (if (1 : Nat) = 1 then 0 else q.val); rw [if_pos rfl])).trans ?_
  show Ideal.div (shapeCast S2560x1 w shapeCasts_S2560_S2560x1 (ix2 p (0 : Fin 1))) c = _
  refine congrArg (Ideal.div · c) ?_
  exact shapeCast_apply _ _ (ix2 p (0 : Fin 1)) (ix1 p)
    (by rw [Shape.rowMajor_val_one, Shape.rowMajor_val_two]; show p.val = p.val * 1 + 0; omega)

/-- x · logistic x, narrowed to bf16 for the second matmul: on the extended reals the narrowing is the identity. -/
theorem silu_at {s : Shape} (V : FVec Ideal s .f32) (h : FTy.bf16.bits < FTy.f32.bits) (i : s.Idx) :
    (truncf .bf16 (mulf V (logistic V)) h) i = silu (V i) := rfl

/-! ## The body's values, from the loaded blocks -/

variable (P0 : Vec Ideal S2560x128 .f32) (P1 P2 : Vec Ideal S2560x128 .bf16) (P3 : Vec Ideal S384x256 .bf16)
  (P4 : Vec Ideal S1x256 .f32) (P5 : Vec Ideal S256x128 .bf16) (P6 P7 P8 : Vec Ideal S1x128 .f32)

/-- Row p's concatenated row: the edge block's row, then the two gathered blocks' rows. -/
abbrev cRow (p : Fin 2560) : Fin 384 → EReal :=
  catRow (fun q => P0 (ix2 p q)) (fun q => P1 (ix2 p q)) (fun q => P2 (ix2 p q))

/-- The parameters by coordinates (the vectors arrive as [1 × n] rows). -/
abbrev W1f : Fin 384 → Fin 256 → EReal := fun k u => P3 (ix2 k u)
abbrev b1f : Fin 256 → EReal := fun u => P4 (ix2 (0 : Fin 1) u)
abbrev W2f : Fin 256 → Fin 128 → EReal := fun u j => P5 (ix2 u j)
abbrev rowf (v : Vec Ideal S1x128 .f32) : Fin 128 → EReal := fun j => v (ix2 (0 : Fin 1) j)

/-- The second linear layer's row for block row p. -/
abbrev yRow (p : Fin 2560) : Fin 128 → EReal := layer2 (cRow P0 P1 P2 p) (W1f P3) (b1f P4) (W2f P5) (rowf P6)

/-- The three blocks side by side. -/
abbrev catK : FVec Ideal S2560x384 .bf16 :=
  concatenate S2560x384 1 [⟨S2560x128, truncf .bf16 P0 bitsLt_bf16_f32⟩, ⟨S2560x128, shapeCast S2560x128 P1 shapeCasts_S2560x128_S2560x128⟩, ⟨S2560x128, shapeCast S2560x128 P2 shapeCasts_S2560x128_S2560x128⟩] concatenates_S2560x128_S2560x128_S2560x128_S2560x384_d1

/-- The first linear layer over the block. -/
abbrev hidK : FVec Ideal S2560x256 .f32 :=
  addf (matmul dot_S2560x384_S384x256_S2560x256_1_0_0_1_n_n none (catK P0 P1 P2) (shapeCast S384x256 P3 shapeCasts_S384x256_S384x256 : FVec Ideal S384x256 .bf16) (constant (F := Ideal) S2560x256 .f32 0x00000000#32))
    (broadcastTo S2560x256 (shapeCast S1x256 P4 shapeCasts_S1x256_S1x256) broadcasts_S1x256_S2560x256)

/-- The second linear layer over the block: the body's value before the normalisation. -/
abbrev outK : FVec Ideal S2560x128 .f32 :=
  addf (matmul dot_S2560x256_S256x128_S2560x128_1_0_0_1_n_n none (truncf .bf16 (mulf (hidK P0 P1 P2 P3 P4) (logistic (hidK P0 P1 P2 P3 P4))) bitsLt_bf16_f32) (shapeCast S256x128 P5 shapeCasts_S256x128_S256x128 : FVec Ideal S256x128 .bf16) (constant (F := Ideal) S2560x128 .f32 0x00000000#32))
    (broadcastTo S2560x128 (shapeCast S1x128 P6 shapeCasts_S1x128_S1x128) broadcasts_S1x128_S2560x128)

/-- The printed payload is that value. -/
theorem pay2_eq : k0_pay2 (F := Ideal) P0 P1 P2 P3 P4 P5 P6 = outK P0 P1 P2 P3 P4 P5 P6 := rfl

/-- The side-by-side blocks at (p, k): the concatenated row's entry k. -/
theorem catK_at (p : Fin 2560) (k : Fin 384) : catK P0 P1 P2 (ix2 p k) = cRow P0 P1 P2 p k := by
  unfold catK
  rw [shapeCast_self, shapeCast_self]
  exact concat3_apply _ _ _ _ p k

/-- The first layer at (p, u). -/
theorem hidK_at (p : Fin 2560) (u : Fin 256) :
    hidK P0 P1 P2 P3 P4 (ix2 p u) = layer1 (cRow P0 P1 P2 p) (W1f P3) (b1f P4) u := by
  unfold hidK
  rw [addf_apply, matmulA_at, biasRow256_at, shapeCast_self]
  unfold layer1
  refine congrArg (· + _) (Finset.sum_congr rfl fun k _ => ?_)
  rw [catK_at]

/-- The second layer at (p, j). -/
theorem outK_at (p : Fin 2560) (j : Fin 128) :
    outK P0 P1 P2 P3 P4 P5 P6 (ix2 p j) = yRow P0 P1 P2 P3 P4 P5 P6 p j := by
  unfold outK
  rw [addf_apply, matmulB_at, paramRow128_at, shapeCast_self]
  unfold yRow layer2
  refine congrArg (· + _) (Finset.sum_congr rfl fun u _ => ?_)
  rw [silu_at, hidK_at]

/-- The row sum of the second layer's block at row p. -/
theorem sum_at (hacc : (0x00000000#32 : BitVec 32) = 0x00000000#32) (p : Fin 2560) :
    multiReduction .add [1] S2560 (outK P0 P1 P2 P3 P4 P5 P6) 0x00000000#32 reduces_S2560x128_S2560 (.inl rfl) hacc (ix1 p)
      = ∑ j : Fin 128, yRow P0 P1 P2 P3 P4 P5 P6 p j := by
  rw [rowSum_at]
  exact Finset.sum_congr rfl fun j _ => outK_at P0 P1 P2 P3 P4 P5 P6 p j

/-- The block less its row means. -/
abbrev cenK : FVec Ideal S2560x128 .f32 :=
  subf (outK P0 P1 P2 P3 P4 P5 P6) (broadcastTo S2560x128 (divf (shapeCast S2560x1 (multiReduction .add [1] S2560 (outK P0 P1 P2 P3 P4 P5 P6) 0x00000000#32 reduces_S2560x128_S2560 (.inl rfl) rfl) shapeCasts_S2560_S2560x1) (broadcast S2560x1 (Scalar.ofBits .f32 0x43000000#32))) broadcasts_S2560x1_S2560x128)

/-- The centred entry at (p, q). -/
theorem cenK_at (p : Fin 2560) (q : Fin 128) :
    cenK P0 P1 P2 P3 P4 P5 P6 (ix2 p q) = centred (yRow P0 P1 P2 P3 P4 P5 P6 p) q := by
  unfold cenK
  rw [subf_apply, outK_at, colOver_at, sum_at]
  rfl

/-- The sum of the centred entries' squares at row p. -/
theorem sqsum_at (hacc : (0x00000000#32 : BitVec 32) = 0x00000000#32) (p : Fin 2560) :
    multiReduction .add [1] S2560 (mulf (cenK P0 P1 P2 P3 P4 P5 P6) (cenK P0 P1 P2 P3 P4 P5 P6)) 0x00000000#32 reduces_S2560x128_S2560 (.inl rfl) hacc (ix1 p)
      = ∑ q : Fin 128, centred (yRow P0 P1 P2 P3 P4 P5 P6 p) q * centred (yRow P0 P1 P2 P3 P4 P5 P6 p) q := by
  rw [rowSum_at]
  refine Finset.sum_congr rfl fun q _ => ?_
  rw [mulf_apply, cenK_at]

/-- THE BLOCK THE BODY STORES, at (p, j), is the row function of row p's concatenated row. -/
theorem block_at (p : Fin 2560) (j : Fin 128) :
    E9 (F := Ideal) P0 P1 P2 P3 P4 P5 P6 P7 P8 (ix2 p j)
      = rowOut (cRow P0 P1 P2 p) (W1f P3) (b1f P4) (W2f P5) (rowf P6) (rowf P7) (rowf P8) j := by
  have i0 : ix9_0 (ix2 p j) = ix2 p j := funext fun a => by match a with | ⟨0, _⟩ => rfl | ⟨1, _⟩ => rfl
  have i1 : ix9_1 (ix2 p j) = ix1 p := funext fun a => by match a with | ⟨0, _⟩ => rfl
  have i2 : ix9_2 (ix2 p j) = ix1 p := funext fun a => by match a with | ⟨0, _⟩ => rfl
  have i3 : ix9_3 (ix2 p j) = ix2 (0 : Fin 1) j := funext fun a => by match a with | ⟨0, _⟩ => rfl | ⟨1, _⟩ => rfl
  have i4 : ix9_4 (ix2 p j) = ix2 (0 : Fin 1) j := funext fun a => by match a with | ⟨0, _⟩ => rfl | ⟨1, _⟩ => rfl
  show FloatOps.addf (FloatOps.mulf (FloatOps.mulf (FloatOps.subf (k0_pay2 (F := Ideal) P0 P1 P2 P3 P4 P5 P6 (ix9_0 (ix2 p j)))
      (FloatOps.divf (multiReduction .add [1] S2560 (outK P0 P1 P2 P3 P4 P5 P6) 0x00000000#32 reduces_S2560x128_S2560 (.inl rfl) rfl (ix9_1 (ix2 p j))) (Scalar.ofBits .f32 0x43000000#32)))
      (FloatOps.rsqrt (FloatOps.addf (FloatOps.divf (multiReduction .add [1] S2560 (mulf (cenK P0 P1 P2 P3 P4 P5 P6) (cenK P0 P1 P2 P3 P4 P5 P6)) 0x00000000#32 reduces_S2560x128_S2560 (.inl rfl) rfl (ix9_2 (ix2 p j))) (Scalar.ofBits .f32 0x43000000#32)) (Scalar.ofBits .f32 0x3727C5AC#32))))
      (P7 (ix9_3 (ix2 p j)))) (P8 (ix9_4 (ix2 p j))) = _
  rw [i0, i1, i2, i3, i4, pay2_eq, outK_at, sum_at, sqsum_at]
  rfl

end Cert.KernelIdeal.KernelRow

end
-- ==== Proof.Blocks.lean ====
/-
  FROM BLOCKS TO THE ARRAY. The grid has 250 points; point t stages rows 2560·t … 2560·t + 2559 of the edge features
  and of the two gathered arrays, the parameters whole at every point, and writes back rows 2560·t … of the result. So
  what point t writes back is block t of ONE whole-array function of the arrays the region finds: at (e, j) the row
  function of row e of the three row arrays. The 250 blocks tile the [640000 × 128] result (row e lies in block
  e / 2560), so the result array ends holding that function. Everything about blocks is stated for arbitrary arrays of
  the windows' shapes; the arrays the region really finds are put in at the end.
-/
import proofs.«427568_j20486994002443_3_alg».proof.Proof.KernelRow

open scoped BigOperators

noncomputable section

namespace Cert.KernelIdeal.Blocks

open Cert.KernelIdeal Cert.KernelIdeal.Gen Cert.KernelIdeal.Value Idealize.ShloMosaic Idealize.ShloMosaic.TcCoe
  Idealize.SL.Sem Idealize.ShloMosaic.ValueIdx Cert.EdgeRow Cert.KernelIdeal.KernelRow
open Idealize.ShloMosaic.Pipeline (Dat)

/-! ## Where each block sits -/

theorem hz : (![0, 0] : Fin 2 → Nat) = fun _ => 0 := funext fun a => by fin_cases a <;> rfl

/-- The printed index maps, decided over the 250 points: the three row windows and the result window sit at block
    (t, 0), the six parameter windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- There are 250 points. -/
theorem lt_250 (t : Fin cfg0.N) : t.val < 250 := lt_of_lt_of_eq t.isLt N_0

/-- Row p of point t's blocks is row 2560·t + p of the arrays. -/
def erow (t : Fin cfg0.N) (p : Fin 2560) : Fin 640000 :=
  ⟨t.val * 2560 + p.val, by have := lt_250 t; have := p.isLt; omega⟩

/-! ## Blocks of arbitrary arrays -/

section Arrays

variable (A0 : Vec Ideal S640000x128 .f32) (A1 A2 : Vec Ideal S640000x128 .bf16) (A3 : Vec Ideal S384x256 .bf16)
  (A4 : Vec Ideal S1x256 .f32) (A5 : Vec Ideal S256x128 .bf16) (A6 A7 A8 : Vec Ideal S1x128 .f32)

/-- THE RESULT as one function of nine arrays of the windows' shapes: at (e, j), the row function of row e. -/
def Gfun : S640000x128.Idx → EReal := fun i =>
  rowOut (catRow (fun q => A0 (ix2 (i 0 : Fin 640000) q)) (fun q => A1 (ix2 (i 0 : Fin 640000) q))
      (fun q => A2 (ix2 (i 0 : Fin 640000) q)))
    (W1f A3) (b1f A4) (W2f A5) (rowf A6) (rowf A7) (rowf A8) (i 1 : Fin 128)

/-- Window w's block of an array at point t. -/
abbrev R0 (t : Fin cfg0.N) : Vec Ideal S2560x128 .f32 := ((cfg0.win 0).blk t).view.read (Elt Ideal) A0
abbrev R1 (t : Fin cfg0.N) : Vec Ideal S2560x128 .bf16 := ((cfg0.win 1).blk t).view.read (Elt Ideal) A1
abbrev R2 (t : Fin cfg0.N) : Vec Ideal S2560x128 .bf16 := ((cfg0.win 2).blk t).view.read (Elt Ideal) A2
abbrev R3 (t : Fin cfg0.N) : Vec Ideal S384x256 .bf16 := ((cfg0.win 3).blk t).view.read (Elt Ideal) A3
abbrev R4 (t : Fin cfg0.N) : Vec Ideal S1x256 .f32 := ((cfg0.win 4).blk t).view.read (Elt Ideal) A4
abbrev R5 (t : Fin cfg0.N) : Vec Ideal S256x128 .bf16 := ((cfg0.win 5).blk t).view.read (Elt Ideal) A5
abbrev R6 (t : Fin cfg0.N) : Vec Ideal S1x128 .f32 := ((cfg0.win 6).blk t).view.read (Elt Ideal) A6
abbrev R7 (t : Fin cfg0.N) : Vec Ideal S1x128 .f32 := ((cfg0.win 7).blk t).view.read (Elt Ideal) A7
abbrev R8 (t : Fin cfg0.N) : Vec Ideal S1x128 .f32 := ((cfg0.win 8).blk t).view.read (Elt Ideal) A8

/-- The edge-feature block at (p, q) is the array at (2560·t + p, q). -/
theorem R0_at (t : Fin cfg0.N) (p : Fin 2560) (q : Fin 128) : R0 A0 t (ix2 p q) = A0 (ix2 (erow t p) q) := by
  obtain ⟨e00, e01, -⟩ := idx_facts t
  show A0 (((cfg0.win 0).blk t).view.emb (ix2 p q)) = A0 (ix2 (erow t p) q)
  refine congrArg A0 (funext fun a => Fin.ext ?_)
  match a with
  | ⟨0, _⟩ => show win0_0.index t (0 : Fin 2) * 2560 + 1 * p.val = t.val * 2560 + p.val; omega
  | ⟨1, _⟩ => show win0_0.index t (1 : Fin 2) * 128 + 1 * q.val = q.val; omega

/-- The source-row block at (p, q) is the array at (2560·t + p, q). -/
theorem R1_at (t : Fin cfg0.N) (p : Fin 2560) (q : Fin 128) : R1 A1 t (ix2 p q) = A1 (ix2 (erow t p) q) := by
  obtain ⟨-, -, e10, e11, -⟩ := idx_facts t
  show A1 (((cfg0.win 1).blk t).view.emb (ix2 p q)) = A1 (ix2 (erow t p) q)
  refine congrArg A1 (funext fun a => Fin.ext ?_)
  match a with
  | ⟨0, _⟩ => show win0_1.index t (0 : Fin 2) * 2560 + 1 * p.val = t.val * 2560 + p.val; omega
  | ⟨1, _⟩ => show win0_1.index t (1 : Fin 2) * 128 + 1 * q.val = q.val; omega

/-- The destination-row block at (p, q) is the array at (2560·t + p, q). -/
theorem R2_at (t : Fin cfg0.N) (p : Fin 2560) (q : Fin 128) : R2 A2 t (ix2 p q) = A2 (ix2 (erow t p) q) := by
  obtain ⟨-, -, -, -, e20, e21, -⟩ := idx_facts t
  show A2 (((cfg0.win 2).blk t).view.emb (ix2 p q)) = A2 (ix2 (erow t p) q)
  refine congrArg A2 (funext fun a => Fin.ext ?_)
  match a with
  | ⟨0, _⟩ => show win0_2.index t (0 : Fin 2) * 2560 + 1 * p.val = t.val * 2560 + p.val; omega
  | ⟨1, _⟩ => show win0_2.index t (1 : Fin 2) * 128 + 1 * q.val = q.val; omega

/-- The W1 block is the whole array at every point. -/
theorem R3_eq (t : Fin cfg0.N) : R3 A3 t = A3 := by
  obtain ⟨-, -, -, -, -, -, e30, e31, -⟩ := idx_facts t
  funext y
  show A3 (((cfg0.win 3).blk t).view.emb y) = A3 y
  refine congrArg A3 (funext fun a => Fin.ext ?_)
  match a with
  | ⟨0, _⟩ => show win0_3.index t (0 : Fin 2) * 384 + 1 * (y 0).val = (y 0).val; omega
  | ⟨1, _⟩ => show win0_3.index t (1 : Fin 2) * 256 + 1 * (y 1).val = (y 1).val; omega

/-- The b1 block is the whole array at every point. -/
theorem R4_eq (t : Fin cfg0.N) : R4 A4 t = A4 := by
  obtain ⟨-, -, -, -, -, -, -, -, e40, e41, -⟩ := idx_facts t
  funext y
  show A4 (((cfg0.win 4).blk t).view.emb y) = A4 y
  refine congrArg A4 (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- The W2 block is the whole array at every point. -/
theorem R5_eq (t : Fin cfg0.N) : R5 A5 t = A5 := by
  obtain ⟨-, -, -, -, -, -, -, -, -, -, e50, e51, -⟩ := idx_facts t
  funext y
  show A5 (((cfg0.win 5).blk t).view.emb y) = A5 y
  refine congrArg A5 (funext fun a => Fin.ext ?_)
  match a with
  | ⟨0, _⟩ => show win0_5.index t (0 : Fin 2) * 256 + 1 * (y 0).val = (y 0).val; omega
  | ⟨1, _⟩ => show win0_5.index t (1 : Fin 2) * 128 + 1 * (y 1).val = (y 1).val; omega

/-- The b2 block is the whole array at every point. -/
theorem R6_eq (t : Fin cfg0.N) : R6 A6 t = A6 := by
  obtain ⟨-, -, -, -, -, -, -, -, -, -, -, -, e60, e61, -⟩ := idx_facts t
  funext y
  show A6 (((cfg0.win 6).blk t).view.emb y) = A6 y
  refine congrArg A6 (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- The γ block is the whole array at every point. -/
theorem R7_eq (t : Fin cfg0.N) : R7 A7 t = A7 := by
  obtain ⟨-, -, -, -, -, -, -, -, -, -, -, -, -, -, e70, e71, -⟩ := idx_facts t
  funext y
  show A7 (((cfg0.win 7).blk t).view.emb y) = A7 y
  refine congrArg A7 (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- The β block is the whole array at every point. -/
theorem R8_eq (t : Fin cfg0.N) : R8 A8 t = A8 := by
  obtain ⟨-, -, -, -, -, -, -, -, -, -, -, -, -, -, -, -, e80, e81, -⟩ := idx_facts t
  funext y
  show A8 (((cfg0.win 8).blk t).view.emb y) = A8 y
  refine congrArg A8 (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- THE BODY'S BLOCK at (p, q), from the arrays' blocks at point t, is the whole-array function at (2560·t + p, q). -/
theorem block_of_arrays (t : Fin cfg0.N) (p : Fin 2560) (q : Fin 128) :
    E9 (F := Ideal) (R0 A0 t) (R1 A1 t) (R2 A2 t) (R3 A3 t) (R4 A4 t) (R5 A5 t) (R6 A6 t) (R7 A7 t) (R8 A8 t) (ix2 p q)
      = Gfun A0 A1 A2 A3 A4 A5 A6 A7 A8 (ix2 (erow t p) q) := by
  refine (block_at (R0 A0 t) (R1 A1 t) (R2 A2 t) (R3 A3 t) (R4 A4 t) (R5 A5 t) (R6 A6 t) (R7 A7 t) (R8 A8 t) p q).trans ?_
  rw [R3_eq, R4_eq, R5_eq, R6_eq, R7_eq, R8_eq]
  unfold Gfun
  show rowOut (catRow (fun q' => R0 A0 t (ix2 p q')) (fun q' => R1 A1 t (ix2 p q')) (fun q' => R2 A2 t (ix2 p q')))
      (W1f A3) (b1f A4) (W2f A5) (rowf A6) (rowf A7) (rowf A8) q
    = rowOut (catRow (fun q' => A0 (ix2 (erow t p) q')) (fun q' => A1 (ix2 (erow t p) q')) (fun q' => A2 (ix2 (erow t p) q')))
      (W1f A3) (b1f A4) (W2f A5) (rowf A6) (rowf A7) (rowf A8) q
  simp only [R0_at, R1_at, R2_at]

end Arrays

/-! ## What a point writes back, the cover, the array -/

variable (m : (ℓ : Loc nD τ sig) → Buf (Elt Ideal) ℓ) (ρ : Dev nD → PrngReg)

/-- THE RESULT as a function of the arrays the region finds. -/
def G (c : Dev nD) : S640000x128.Idx → EReal :=
  Gfun (V m c main_arg0) (V m c main_v1) (V m c main_v3) (V m c main_v4) (V m c main_v6) (V m c main_v5)
    (V m c main_v7) (V m c main_v8) (V m c main_v9)

/-- WHAT POINT t WRITES BACK is block t of `G`. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  unfold out0_9
  simp only [View.ld_unit_zero (S := S2560x128) hz, View.ld_unit_zero (S := S384x256) hz, View.ld_unit_zero (S := S1x256) hz,
    View.ld_unit_zero (S := S256x128) hz, View.ld_unit_zero (S := S1x128) hz]
  funext j
  obtain ⟨p, q, rfl⟩ : ∃ (p : Fin 2560) (q : Fin 128), j = ix2 p q := ⟨j 0, j 1, eq_ix2 j⟩
  refine ((canon9_eq (iblk m c 0 t) (iblk m c 1 t) (iblk m c 2 t) (iblk m c 3 t) (iblk m c 4 t) (iblk m c 5 t) (iblk m c 6 t)
      (iblk m c 7 t) (iblk m c 8 t) (ix2 p q)).trans
    (block_of_arrays (V m c main_arg0) (V m c main_v1) (V m c main_v3) (V m c main_v4) (V m c main_v6) (V m c main_v5)
      (V m c main_v7) (V m c main_v8) (V m c main_v9) t p q)).trans ?_
  obtain ⟨-, -, -, -, -, -, -, -, -, -, -, -, -, -, -, -, -, -, e90, e91⟩ := idx_facts t
  have hemb : ((cfg0.win 9).blk t).view.emb (ix2 p q) = ix2 (erow t p) q := by
    funext a; apply Fin.ext
    match a with
    | ⟨0, _⟩ => show win0_9.index t (0 : Fin 2) * 2560 + 1 * p.val = t.val * 2560 + p.val; omega
    | ⟨1, _⟩ => show win0_9.index t (1 : Fin 2) * 128 + 1 * q.val = q.val; omega
  show _ = G m c (((cfg0.win 9).blk t).view.emb (ix2 p q))
  rw [hemb]
  rfl

/-- An index of the result array is in point t's block iff its row is one of the block's 2560 rows (its column always is). -/
theorem mem_blk (t : Fin cfg0.N) (i : S640000x128.Idx) :
    i ∈ ((cfg0.win 9).blk t).view.set ↔ ∀ a : Fin 2, win0_9.index t a * S2560x128.size a ≤ (i a).val ∧ (i a).val < win0_9.index t a * S2560x128.size a + S2560x128.size a := by
  show i ∈ ((View.whole main_v10).slice (win0_9.rect t)).set ↔ _
  rw [View.set_slice_whole, Rect.mem_set_unit]
  exact Iff.rfl

/-- Every index of the result array lies in some point's block: row e in block e / 2560. -/
theorem cover (i : S640000x128.Idx) : ∃ t : Fin cfg0.N, (cfg0.win 9).flush t = true ∧ i ∈ ((cfg0.win 9).blk t).view.set := by
  have hi0 : (i 0).val < 640000 := (i 0).isLt
  have hi1 : (i 1).val < 128 := (i 1).isLt
  have hN : cfg0.N = 250 := N_0
  obtain ⟨t, ht⟩ : ∃ t : Fin cfg0.N, t.val = (i 0).val / 2560 := ⟨⟨(i 0).val / 2560, by rw [hN]; omega⟩, rfl⟩
  obtain ⟨-, -, -, -, -, -, -, -, -, -, -, -, -, -, -, -, -, -, e90, e91⟩ := idx_facts t
  refine ⟨t, flush0_9 t, ?_⟩
  rw [mem_blk]
  intro a
  match a with
  | ⟨0, _⟩ => show win0_9.index t (0 : Fin 2) * 2560 ≤ (i 0).val ∧ (i 0).val < win0_9.index t (0 : Fin 2) * 2560 + 2560; omega
  | ⟨1, _⟩ => show win0_9.index t (1 : Fin 2) * 128 ≤ (i 1).val ∧ (i 1).val < win0_9.index t (1 : Fin 2) * 128 + 128; omega

/-- THE RESULT ARRAY after the run is `G`. -/
theorem final (c : Dev nD) : (dats m 0 c).arrAt 9 cfg0.N = G m c :=
  (dats m 0 c).arrAt_eq_of_cover 9 (G m c) (fun t _ => flushed_eq m c t) (cover)

end Cert.KernelIdeal.Blocks

end
-- ==== Proof.HostRows.lean ====
/-
  THE GATHERED ROWS THE REGION FINDS. Before the region the host computes, for each of the two index vectors, jnp.take's
  row gather: an index below zero has 50000 added; the rows are gathered at the resulting column of start indices; and
  a row whose start index is outside [0, 49999] is replaced by the NaN word. When every index word is in [0, 50000) the
  negative test is false, both range tests are true, the mask over the one-entry axis is all ones, and what is left
  is the plain gather at the indices as a column — the very term the reference gathers with. The rows are then narrowed
  to bf16, which is the identity on the extended reals. The six parameter arrays the region finds are the arguments
  narrowed (the matrices) or reshaped to one row (the vectors).
-/
import proofs.«427568_j20486994002443_3_alg».proof.Proof.Gen.KernelIdeal.Frame
import Idealize.ShloMosaic.Lib.StableHlo.Predicate
import Idealize.ShloMosaic.Lib.StableHlo.Run
import Idealize.ShloMosaic.Lib.ReduceAll
import Idealize.ShloMosaic.Lib.ValueIdx

set_option maxRecDepth 16384

noncomputable section

namespace Cert.KernelIdeal.HostRows

open Cert.KernelIdeal Cert.KernelIdeal.Gen Idealize.ShloMosaic Idealize.ShloMosaic.TcCoe Idealize.SL.Sem
  Idealize.ShloMosaic.StableHlo Idealize.ShloMosaic.ValueIdx Idealize.ShloMosaic.StableHlo.Predicate

/-! ## Words -/

/-- A word below 50000: not negative, at least 0, at most 49999, all read signed. -/
theorem word_facts (w : BitVec 32) (hw : w.toNat < 50000) :
    IntOp.cmpi .slt w 0#32 = 0#1 ∧ IntOp.cmpi .sge w 0#32 = 1#1 ∧ IntOp.cmpi .sle w 49999#32 = 1#1 := by
  have h31 : w.toNat < 2 ^ 31 := by omega
  have z31 : (0#32 : BitVec 32).toNat < 2 ^ 31 := by decide
  have k31 : (49999#32 : BitVec 32).toNat < 2 ^ 31 := by decide
  refine ⟨eq_zero_of_ne_one fun h => ?_, (sge_iff_toNat h31 z31).2 (Nat.zero_le _), (sle_iff_toNat h31 k31).2 ?_⟩
  · have := (slt_iff_toNat h31 z31).1 h
    exact absurd this (Nat.not_lt_zero _)
  · show w.toNat ≤ 49999
    omega

/-- A left fold by `and` from 1 over 1s is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_one f l _ (IntOp.andi_eq_one.2 ⟨h, hl a List.mem_cons_self⟩)
      (fun n hn => hl n (List.mem_cons_of_mem _ hn))

/-! ## jnp.take's row gather, as the host computes it -/

/-- The indices with 50000 added to the negative ones. -/
def wrapped (idx : IVec S640000 32) : IVec S640000 32 :=
  select (cmpi .slt idx (broadcastInDim S640000 ![] bcast_S_S640000 (constantI S_ 32 0#32)))
    (addi idx (broadcastInDim S640000 ![] bcast_S_S640000 (constantI S_ 32 50000#32))) idx

/-- The start indices: the wrapped indices as an [n × 1] column. -/
def startCol (idx : IVec S640000 32) : IVec S640000x1 32 :=
  broadcastInDim S640000x1 ![0] bcast_S640000_S640000x1_0 (wrapped idx)

/-- Per start index: is it in [0, 49999]? -/
def inRange (idx : IVec S640000 32) : IVec S640000x1 1 :=
  andi (cmpi .sge (startCol idx) (broadcastInDim S640000x1 ![] bcast_S_S640000x1 (constantI S_ 32 0#32)))
    (cmpi .sle (startCol idx) (broadcastInDim S640000x1 ![0, 1] bcast_S1x1_S640000x1_0_1
      (broadcastInDim S1x1 ![1] bcast_S1_S1x1_1 (constantI S1 32 49999#32))))

/-- The row gather with out-of-range rows replaced by the NaN word. -/
def takeRows (x : FVec Ideal S50000x128 .f32) (idx : IVec S640000 32) : FVec Ideal S640000x128 .f32 :=
  select (broadcastInDim S640000x128 ![0] bcast_S640000_S640000x128_0
      (Host.reduce IntOp.andi (inRange idx) (constantI S_ 1 1#1) reducesTo_S640000x1_S640000_d1 h_S_))
    (Host.gather gather_S50000x128_S640000x1_S640000x128_1_0_n_n_0_1_1128 x (startCol idx))
    (broadcastInDim S640000x128 ![] bcast_S_S640000x128 (constant (F := Ideal) S_ .f32 0x7FC00000#32))

section InRange

variable (idx : IVec S640000 32)

/-- In range, no index is wrapped. -/
theorem wrapped_eq (h : ∀ k : S640000.Idx, (idx k).toNat < 50000) (k : S640000.Idx) : wrapped idx k = idx k := by
  unfold wrapped
  rw [select_apply]
  have hc : (cmpi .slt idx (broadcastInDim S640000 ![] bcast_S_S640000 (constantI S_ 32 0#32))) k = 0#1 := by
    show IntOp.cmpi .slt (idx k) (broadcastInDim S640000 ![] bcast_S_S640000 (constantI S_ 32 0#32) k) = 0#1
    rw [bcast_scalar bcast_S_S640000 h_S_]
    exact (word_facts _ (h k)).1
  rw [hc, select_zero]

/-- In range, every start index passes both range tests. -/
theorem inRange_one (h : ∀ k : S640000.Idx, (idx k).toNat < 50000) (i : S640000x1.Idx) : inRange idx i = 1#1 := by
  unfold inRange
  show IntOp.andi (IntOp.cmpi .sge (startCol idx i) (broadcastInDim S640000x1 ![] bcast_S_S640000x1 (constantI S_ 32 0#32) i))
    (IntOp.cmpi .sle (startCol idx i) (broadcastInDim S640000x1 ![0, 1] bcast_S1x1_S640000x1_0_1
      (broadcastInDim S1x1 ![1] bcast_S1_S1x1_1 (constantI S1 32 49999#32)) i)) = 1#1
  have hs : ∃ k : S640000.Idx, startCol idx i = idx k := by
    unfold startCol broadcastInDim
    exact ⟨_, wrapped_eq idx h _⟩
  obtain ⟨k, hk⟩ := hs
  have h0 : broadcastInDim S640000x1 ![] bcast_S_S640000x1 (constantI S_ 32 0#32) i = 0#32 := by
    rw [bcast_scalar bcast_S_S640000x1 h_S_]; rfl
  have h9 : broadcastInDim S640000x1 ![0, 1] bcast_S1x1_S640000x1_0_1
      (broadcastInDim S1x1 ![1] bcast_S1_S1x1_1 (constantI S1 32 49999#32)) i = 49999#32 := by
    unfold broadcastInDim; rfl
  rw [hk, h0, h9]
  exact IntOp.andi_eq_one.2 ⟨(word_facts _ (h k)).2.1, (word_facts _ (h k)).2.2⟩

/-- In range, the mask is 1 at every row. -/
theorem mask_one (h : ∀ k : S640000.Idx, (idx k).toNat < 50000) (e : S640000.Idx) :
    Host.reduce IntOp.andi (inRange idx) (constantI S_ 1 1#1) reducesTo_S640000x1_S640000_d1 h_S_ e = 1#1 := by
  rw [Host.reduce_eq_foldl]
  exact foldl_andi_one (inRange idx) _ _ rfl (fun n _ => inRange_one idx h n)

/-- IN RANGE, jnp.take's row gather is the plain gather at the indices as a column. -/
theorem takeRows_eq (h : ∀ k : S640000.Idx, (idx k).toNat < 50000) (x : FVec Ideal S50000x128 .f32) :
    takeRows x idx = Host.gather gather_S50000x128_S640000x1_S640000x128_1_0_n_n_0_1_1128 x (startCol idx) := by
  funext i
  unfold takeRows
  rw [select_apply]
  have hm : broadcastInDim S640000x128 ![0] bcast_S640000_S640000x128_0
      (Host.reduce IntOp.andi (inRange idx) (constantI S_ 1 1#1) reducesTo_S640000x1_S640000_d1 h_S_) i = 1#1 := by
    unfold broadcastInDim
    exact mask_one idx h _
  rw [hm, select_one]

end InRange

/-! ## The arrays the region finds -/

/-- A value carried to an equal type and back is itself. -/
theorem cast_back {α β : Type} (h : α = β) (h' : β = α) (v : α) : cast h' (cast h v) = v := by
  subst h; rfl

variable (m : (ℓ : Loc nD τ sig) → Buf (Elt Ideal) ℓ)

/-- A buffer's contents read at the value's type are the buffer's contents: the node features, -/
theorem leaf_nfeat (c : Dev nD) :
    (show FVec Ideal S50000x128 .f32 from
        (TRef.of main_arg1 : TRef sig ⟨S50000x128, .f32⟩).ofBuf (Val := Elt Ideal) (m (c, Proc.tc.devRef main_arg1)))
      = m ((c : Thread nD τ).loc main_arg1) := rfl

/-- the source indices, -/
theorem leaf_src (c : Dev nD) :
    (show IVec S640000 32 from
        (TRef.of main_arg2 : TRef sig ⟨S640000, .i32⟩).ofBuf (Val := Elt Ideal) (m (c, Proc.tc.devRef main_arg2)))
      = m ((c : Thread nD τ).loc main_arg2) := rfl

/-- the destination indices; -/
theorem leaf_dst (c : Dev nD) :
    (show IVec S640000 32 from
        (TRef.of main_arg3 : TRef sig ⟨S640000, .i32⟩).ofBuf (Val := Elt Ideal) (m (c, Proc.tc.devRef main_arg3)))
      = m ((c : Thread nD τ).loc main_arg3) := rfl

/-- and a value written to the first gather's result buffer is that value, -/
theorem out_src (X : FVec Ideal S640000x128 .f32) :
    (show FVec Ideal S640000x128 .f32 from (TRef.of main_v0 : TRef sig ⟨S640000x128, .f32⟩).toBuf (Val := Elt Ideal) X) = X := rfl

/-- likewise to the second's. -/
theorem out_dst (X : FVec Ideal S640000x128 .f32) :
    (show FVec Ideal S640000x128 .f32 from (TRef.of main_v2 : TRef sig ⟨S640000x128, .f32⟩).toBuf (Val := Elt Ideal) X) = X := rfl

/-- The gathered source rows as the host stretch leaves them, each value still at its buffer's type: the stretch's
    operations composed, the transports between a value's type and its buffer's cancelling in pairs. -/
theorem raw_src (c : Dev nD) :
    (V m c main_v1 : S640000x128.Idx → EReal)
      = (truncf .bf16 (show FVec Ideal S640000x128 .f32 from (TRef.of main_v0 : TRef sig ⟨S640000x128, .f32⟩).toBuf (Val := Elt Ideal)
          (takeRows (show FVec Ideal S50000x128 .f32 from (TRef.of main_arg1 : TRef sig ⟨S50000x128, .f32⟩).ofBuf (Val := Elt Ideal) (m (c, Proc.tc.devRef main_arg1)))
            (show IVec S640000 32 from (TRef.of main_arg2 : TRef sig ⟨S640000, .i32⟩).ofBuf (Val := Elt Ideal) (m (c, Proc.tc.devRef main_arg2)))))
          bitsLt_bf16_f32 : FVec Ideal S640000x128 .bf16) := by
  dsimp only [V]
  simp only [hostOps0, hostOps0_1, hostOps0_2, hostOps0_3, List.flatten_cons, List.flatten_nil, List.append_nil,
    List.cons_append, List.nil_append]
  after_results_simp
  simp only [TRef.toBuf, TRef.ofBuf, cast_back, takeRows, inRange, startCol, wrapped]

/-- The gathered source rows, narrowed to bf16. -/
theorem V_src (c : Dev nD) :
    (V m c main_v1 : S640000x128.Idx → EReal)
      = (truncf .bf16 (takeRows (m ((c : Thread nD τ).loc main_arg1)) (m ((c : Thread nD τ).loc main_arg2))) bitsLt_bf16_f32 : FVec Ideal S640000x128 .bf16) := by
  rw [raw_src, out_src, leaf_nfeat, leaf_src]

/-- The gathered destination rows as the host stretch leaves them, each value still at its buffer's type. -/
theorem raw_dst (c : Dev nD) :
    (V m c main_v3 : S640000x128.Idx → EReal)
      = (truncf .bf16 (show FVec Ideal S640000x128 .f32 from (TRef.of main_v2 : TRef sig ⟨S640000x128, .f32⟩).toBuf (Val := Elt Ideal)
          (takeRows (show FVec Ideal S50000x128 .f32 from (TRef.of main_arg1 : TRef sig ⟨S50000x128, .f32⟩).ofBuf (Val := Elt Ideal) (m (c, Proc.tc.devRef main_arg1)))
            (show IVec S640000 32 from (TRef.of main_arg3 : TRef sig ⟨S640000, .i32⟩).ofBuf (Val := Elt Ideal) (m (c, Proc.tc.devRef main_arg3)))))
          bitsLt_bf16_f32 : FVec Ideal S640000x128 .bf16) := by
  dsimp only [V]
  simp only [hostOps0, hostOps0_1, hostOps0_2, hostOps0_3, List.flatten_cons, List.flatten_nil, List.append_nil,
    List.cons_append, List.nil_append]
  after_results_simp
  simp only [TRef.toBuf, TRef.ofBuf, cast_back, takeRows, inRange, startCol, wrapped]

/-- The gathered destination rows, narrowed to bf16. -/
theorem V_dst (c : Dev nD) :
    (V m c main_v3 : S640000x128.Idx → EReal)
      = (truncf .bf16 (takeRows (m ((c : Thread nD τ).loc main_arg1)) (m ((c : Thread nD τ).loc main_arg3))) bitsLt_bf16_f32 : FVec Ideal S640000x128 .bf16) := by
  rw [raw_dst, out_dst, leaf_nfeat, leaf_dst]

/-- W1 narrowed to bf16. -/
theorem V_w1 (c : Dev nD) :
    (V m c main_v4 : S384x256.Idx → EReal)
      = (truncf .bf16 (show FVec Ideal S384x256 .f32 from m ((c : Thread nD τ).loc main_arg4)) bitsLt_bf16_f32 : FVec Ideal S384x256 .bf16) := by
  dsimp only [V]
  simp only [hostOps0, hostOps0_1, hostOps0_2, hostOps0_3, List.flatten_cons, List.flatten_nil, List.append_nil,
    List.cons_append, List.nil_append]
  after_results_simp

/-- W2 narrowed to bf16. -/
theorem V_w2 (c : Dev nD) :
    (V m c main_v5 : S256x128.Idx → EReal)
      = (truncf .bf16 (show FVec Ideal S256x128 .f32 from m ((c : Thread nD τ).loc main_arg6)) bitsLt_bf16_f32 : FVec Ideal S256x128 .bf16) := by
  dsimp only [V]
  simp only [hostOps0, hostOps0_1, hostOps0_2, hostOps0_3, List.flatten_cons, List.flatten_nil, List.append_nil,
    List.cons_append, List.nil_append]
  after_results_simp

/-- b1 as one row. -/
theorem V_b1 (c : Dev nD) :
    (V m c main_v6 : S1x256.Idx → EReal) = shapeCast S1x256 (m ((c : Thread nD τ).loc main_arg5)) shapeCasts_S256_S1x256 := by
  dsimp only [V]
  simp only [hostOps0, hostOps0_1, hostOps0_2, hostOps0_3, List.flatten_cons, List.flatten_nil, List.append_nil,
    List.cons_append, List.nil_append]
  after_results_simp
  rfl

/-- b2 as one row. -/
theorem V_b2 (c : Dev nD) :
    (V m c main_v7 : S1x128.Idx → EReal) = shapeCast S1x128 (m ((c : Thread nD τ).loc main_arg7)) shapeCasts_S128_S1x128 := by
  dsimp only [V]
  simp only [hostOps0, hostOps0_1, hostOps0_2, hostOps0_3, List.flatten_cons, List.flatten_nil, List.append_nil,
    List.cons_append, List.nil_append]
  after_results_simp
  rfl

/-- γ as one row. -/
theorem V_gamma (c : Dev nD) :
    (V m c main_v8 : S1x128.Idx → EReal) = shapeCast S1x128 (m ((c : Thread nD τ).loc main_arg8)) shapeCasts_S128_S1x128 := by
  dsimp only [V]
  simp only [hostOps0, hostOps0_1, hostOps0_2, hostOps0_3, List.flatten_cons, List.flatten_nil, List.append_nil,
    List.cons_append, List.nil_append]
  after_results_simp
  rfl

/-- β as one row. -/
theorem V_beta (c : Dev nD) :
    (V m c main_v9 : S1x128.Idx → EReal) = shapeCast S1x128 (m ((c : Thread nD τ).loc main_arg9)) shapeCasts_S128_S1x128 := by
  dsimp only [V]
  simp only [hostOps0, hostOps0_1, hostOps0_2, hostOps0_3, List.flatten_cons, List.flatten_nil, List.append_nil,
    List.cons_append, List.nil_append]
  after_results_simp
  rfl

end Cert.KernelIdeal.HostRows

end
-- ==== Proof.PreRange.lean ====
/-
  THE INDEX RANGE, DECODED. The precondition is a conjunction, as a chain of one-bit `and`s, of one `jnp.all` per float
  input (finiteness, not used here) and, last, one per index vector: every entry e has 0 ≤ e and e < 50000, both signed.
  A chain of `and`s that is 1 has every link 1; a `jnp.all` that is 1 has every element 1; and a 32-bit word that is
  at least 0 and below 50000 signed is below 50000 as a natural number.
-/
import proofs.«427568_j20486994002443_3_alg».proof.Defs
import proofs.«427568_j20486994002443_3_alg».proof.Proof.Gen.Pre_finite_inputs
import Idealize.ShloMosaic.Lib.StableHlo.Predicate
import Idealize.ShloMosaic.Lib.ReduceAll
import Idealize.ShloMosaic.Lib.ValueIdx

set_option maxRecDepth 16384

noncomputable section

namespace Cert.KernelIdeal.PreRange

open Cert.KernelIdeal Idealize.ShloMosaic Idealize.ShloMosaic.TcCoe Idealize.SL.Sem Idealize.ShloMosaic.ValueIdx
  Idealize.ShloMosaic.StableHlo.Predicate

/-- A rank-0 array has one index. -/
instance : Subsingleton (Cert.Pre_finite_inputs.S_).Idx := ⟨fun a b => funext fun d => d.elim0⟩

/-- A word that is at least 0 and below 50000, both signed, is below 50000 unsigned. -/
theorem toNat_lt (w : BitVec 32) (h0 : IntOp.cmpi .sge w (0#32) = 1#1) (h1 : IntOp.cmpi .slt w (50000#32) = 1#1) :
    w.toNat < 50000 := by
  unfold IntOp.cmpi at h0 h1
  rw [ofBool_eq_one_iff] at h0 h1
  simp only [BitVec.slt, BitVec.sle, decide_eq_true_eq] at h0 h1
  have h32 := w.isLt
  unfold BitVec.toInt at h0 h1
  split at h1 <;> simp at h0 h1 <;> omega

/-- One index vector's conjunct, decoded: if its `jnp.all` is 1, every word is below 50000. -/
theorem words_lt (x : IVec Cert.Pre_finite_inputs.S640000 32) (init : IVec Cert.Pre_finite_inputs.S_ 1)
    (hall : Host.reduce IntOp.andi
      (andi (cmpi .sge x (broadcastInDim Cert.Pre_finite_inputs.S640000 ![] Cert.Pre_finite_inputs.Facts.bcast_S_S640000 (constantI Cert.Pre_finite_inputs.S_ 32 0#32)))
        (cmpi .slt x (broadcastInDim Cert.Pre_finite_inputs.S640000 ![] Cert.Pre_finite_inputs.Facts.bcast_S_S640000 (constantI Cert.Pre_finite_inputs.S_ 32 50000#32))))
      init Cert.Pre_finite_inputs.Facts.reducesTo_S640000_S_d0 Cert.Pre_finite_inputs.Facts.h_S_ ix0 = 1#1)
    (k : Cert.Pre_finite_inputs.S640000.Idx) : (x k).toNat < 50000 := by
  have hk := Host.reduce_andi_all _ _ _ _ ix0 hall k
  obtain ⟨h0, h1⟩ := IntOp.andi_eq_one.1 hk
  have e0 : broadcastInDim Cert.Pre_finite_inputs.S640000 ![] Cert.Pre_finite_inputs.Facts.bcast_S_S640000 (constantI Cert.Pre_finite_inputs.S_ 32 0#32) k = 0#32 := by
    rw [bcast_scalar Cert.Pre_finite_inputs.Facts.bcast_S_S640000 Cert.Pre_finite_inputs.Facts.h_S_]; rfl
  have e1 : broadcastInDim Cert.Pre_finite_inputs.S640000 ![] Cert.Pre_finite_inputs.Facts.bcast_S_S640000 (constantI Cert.Pre_finite_inputs.S_ 32 50000#32) k = 50000#32 := by
    rw [bcast_scalar Cert.Pre_finite_inputs.Facts.bcast_S_S640000 Cert.Pre_finite_inputs.Facts.h_S_]; rfl
  have h0' : IntOp.cmpi .sge (x k) (0#32) = 1#1 := e0 ▸ h0
  have h1' : IntOp.cmpi .slt (x k) (50000#32) = 1#1 := e1 ▸ h1
  exact toNat_lt _ h0' h1'

variable (m : (ℓ : Loc nD τ sig) → Buf (Elt Ideal) ℓ)

/-- THE PRECONDITION DECODED: on every device both index vectors hold words below 50000. -/
theorem idx_lt (h : Cert.Pre_KernelIdeal m) (c : Dev nD) :
    (∀ k : S640000.Idx, (m ((c.tc : Thread nD τ).loc main_arg2) k).toNat < 50000)
    ∧ (∀ k : S640000.Idx, (m ((c.tc : Thread nD τ).loc main_arg3) k).toNat < 50000) := by
  have e := congrFun (h c) ix0
  obtain ⟨h45, h51⟩ := IntOp.andi_eq_one.1 e
  obtain ⟨-, h44⟩ := IntOp.andi_eq_one.1 h45
  exact ⟨fun k => words_lt _ _ h44 k, fun k => words_lt _ _ h51 k⟩

end Cert.KernelIdeal.PreRange

end
-- ==== Proof.RefRow.lean ====
/-
  THE REFERENCE, ROW BY ROW. The reference builds [640000 × 384] rows by laying each edge's features beside the two
  gathered node rows, applies the two linear layers with SiLU between, and normalises each 128-wide row. Read at (e, j),
  stage by stage, its result is `Cert.EdgeRow.rowOut` of edge e's concatenated row: a `dot_general` is the sum over the
  contracted axis, a row sum the sum over the row (its zero initial value added first), a broadcast of a row vector reads
  the vector at the column, a broadcast of a column reads it at the row, and jax's expansion of SiLU,
  x · (1 / (1 + exp (−x))), is x · logistic x. The two gathers are kept whole: what they read is settled elsewhere.
-/
import proofs.«427568_j20486994002443_3_alg».proof.Proof.Gen.ReferenceIdeal.Read
import proofs.«427568_j20486994002443_3_alg».proof.Proof.RowSpec
import Idealize.ShloMosaic.Lib.IdealHost

open scoped BigOperators

noncomputable section

namespace Cert.ReferenceIdeal.RefRow

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.EdgeRow

variable (x0 : (⟨S640000x128, .f32⟩ : BufTy).Contents (Elt Ideal)) (x1 : (⟨S50000x128, .f32⟩ : BufTy).Contents (Elt Ideal))
  (x2 x3 : (⟨S640000, .i32⟩ : BufTy).Contents (Elt Ideal)) (x4 : (⟨S384x256, .f32⟩ : BufTy).Contents (Elt Ideal))
  (x5 : (⟨S256, .f32⟩ : BufTy).Contents (Elt Ideal)) (x6 : (⟨S256x128, .f32⟩ : BufTy).Contents (Elt Ideal))
  (x7 x8 x9 : (⟨S128, .f32⟩ : BufTy).Contents (Elt Ideal))

/-- Edge e's concatenated row: its own features, then the source node's gathered row, then the destination node's. -/
abbrev cRow (e : Fin 640000) : Fin 384 → EReal :=
  catRow (fun q => x0 (ix2 e q)) (fun q => val_main_v6 (F := Ideal) x1 x2 (ix2 e q))
    (fun q => val_main_v13 (F := Ideal) x1 x3 (ix2 e q))

/-- The parameters by coordinates. -/
abbrev W1f : Fin 384 → Fin 256 → EReal := fun k u => x4 (ix2 k u)
abbrev b1f : Fin 256 → EReal := fun u => x5 (ix1 u)
abbrev W2f : Fin 256 → Fin 128 → EReal := fun u j => x6 (ix2 u j)
abbrev b2f : Fin 128 → EReal := fun j => x7 (ix1 j)
abbrev gammaf : Fin 128 → EReal := fun j => x8 (ix1 j)
abbrev betaf : Fin 128 → EReal := fun j => x9 (ix1 j)

/-- The second linear layer's row for edge e. -/
abbrev yRow (e : Fin 640000) : Fin 128 → EReal := layer2 (cRow x0 x1 x2 x3 e) (W1f x4) (b1f x5) (W2f x6) (b2f x7)

/-- The concatenation at (e, k) is the concatenated row's entry k. -/
theorem v14_at (e : Fin 640000) (k : Fin 384) :
    val_main_v14 (F := Ideal) x0 x1 x2 x3 (ix2 e k) = cRow x0 x1 x2 x3 e k := by
  unfold val_main_v14
  exact concat3_apply _ _ _ _ e k

/-- The first layer at (e, u): the row's product with column u of W1, plus b1 u. -/
theorem v18_at (e : Fin 640000) (u : Fin 256) :
    val_main_v18 (F := Ideal) x0 x1 x2 x3 x4 x5 (ix2 e u) = layer1 (cRow x0 x1 x2 x3 e) (W1f x4) (b1f x5) u := by
  rw [val_main_v18_apply, val_main_v15_apply, val_main_v17_apply, val_main_v16_apply]
  unfold layer1
  simp only [Ideal.addf_def]
  refine congrArg₂ (· + ·) (Finset.sum_congr rfl fun k _ => ?_) ?_
  · rw [show lidx_main_v15 (ix2 e u) k = ix2 e k from
      funext fun a => by match a with | ⟨0, _⟩ => rfl | ⟨1, _⟩ => rfl, v14_at]
    exact congrArg (_ * x4 ·) (funext fun a => by match a with | ⟨0, _⟩ => rfl | ⟨1, _⟩ => rfl)
  · exact congrArg x5 (funext fun a => by match a with | ⟨0, _⟩ => rfl)

/-- SiLU at (e, u): jax's x · (1 / (1 + exp (−x))) is x · logistic x. -/
theorem v19_at (e : Fin 640000) (u : Fin 256) :
    val_main_v19 (F := Ideal) x0 x1 x2 x3 x4 x5 (ix2 e u) = silu (layer1 (cRow x0 x1 x2 x3 e) (W1f x4) (b1f x5) u) := by
  rw [val_main_v19_apply, val_main_call0_v5_apply, val_main_call0_v4_apply, val_main_call0_cst_0_apply,
    val_main_call0_v3_apply, val_main_call0_v2_apply, val_main_call0_cst_apply, val_main_call0_v1_apply,
    val_main_call0_v0_apply, v18_at]
  simp only [Ideal.mulf_def, Ideal.hostDivf_def, Ideal.addf_def, Ideal.hostUnary_exp_def, Ideal.hostNegf_def,
    Ideal.negf_def, Ideal.ofBits_def, Ideal.ofBits_one_f32]
  rfl

/-- The second layer at (e, j). -/
theorem v23_at (e : Fin 640000) (j : Fin 128) :
    val_main_v23 (F := Ideal) x0 x1 x2 x3 x4 x5 x6 x7 (ix2 e j) = yRow x0 x1 x2 x3 x4 x5 x6 x7 e j := by
  rw [val_main_v23_apply, val_main_v20_apply, val_main_v22_apply, val_main_v21_apply]
  unfold yRow layer2
  simp only [Ideal.addf_def]
  refine congrArg₂ (· + ·) (Finset.sum_congr rfl fun u _ => ?_) ?_
  · rw [show lidx_main_v20 (ix2 e j) u = ix2 e u from
      funext fun a => by match a with | ⟨0, _⟩ => rfl | ⟨1, _⟩ => rfl, v19_at]
    exact congrArg (_ * x6 ·) (funext fun a => by match a with | ⟨0, _⟩ => rfl | ⟨1, _⟩ => rfl)
  · exact congrArg x7 (funext fun a => by match a with | ⟨0, _⟩ => rfl)

/-- The row sum at e. -/
theorem v24_at (e : Fin 640000) :
    val_main_v24 (F := Ideal) x0 x1 x2 x3 x4 x5 x6 x7 (ix1 e) = ∑ j : Fin 128, yRow x0 x1 x2 x3 x4 x5 x6 x7 e j := by
  rw [val_main_v24_apply, val_main_cst_apply]
  simp only [Ideal.ofBits_def, Ideal.ofBits_zero_f32, zero_add]
  refine Finset.sum_congr rfl fun k _ => ?_
  rw [show idx_main_v24 (ix1 e) k = ix2 e k from
    funext fun a => by match a with | ⟨0, _⟩ => rfl | ⟨1, _⟩ => rfl, v23_at]

/-- The row mean, kept as a column, at (e, 0). -/
theorem v27_at (e : Fin 640000) (z : Fin 1) :
    val_main_v27 (F := Ideal) x0 x1 x2 x3 x4 x5 x6 x7 (ix2 e z) = rowMean (yRow x0 x1 x2 x3 x4 x5 x6 x7 e) := by
  rw [val_main_v27_apply, val_main_v25_apply, val_main_v26_apply, val_main_cst_3_apply,
    show idx_main_v25 (ix2 e z) = ix1 e from funext fun a => by match a with | ⟨0, _⟩ => rfl, v24_at]
  rfl

/-- The centred entry at (e, j), as the variance uses it. -/
theorem v29_at (e : Fin 640000) (j : Fin 128) :
    val_main_v29 (F := Ideal) x0 x1 x2 x3 x4 x5 x6 x7 (ix2 e j) = centred (yRow x0 x1 x2 x3 x4 x5 x6 x7 e) j := by
  rw [val_main_v29_apply, val_main_v28_apply, v23_at,
    show idx_main_v28 (ix2 e j) = ix2 e (⟨0, Nat.one_pos⟩ : Fin 1) from
      funext fun a => by match a with | ⟨0, _⟩ => rfl | ⟨1, _⟩ => rfl, v27_at]
  rfl

/-- The centred entry at (e, j), as the result uses it. -/
theorem v36_at (e : Fin 640000) (j : Fin 128) :
    val_main_v36 (F := Ideal) x0 x1 x2 x3 x4 x5 x6 x7 (ix2 e j) = centred (yRow x0 x1 x2 x3 x4 x5 x6 x7 e) j := by
  rw [val_main_v36_apply, val_main_v35_apply, v23_at,
    show idx_main_v35 (ix2 e j) = ix2 e (⟨0, Nat.one_pos⟩ : Fin 1) from
      funext fun a => by match a with | ⟨0, _⟩ => rfl | ⟨1, _⟩ => rfl, v27_at]
  rfl

/-- The sum of the centred entries' squares at e. -/
theorem v31_at (e : Fin 640000) :
    val_main_v31 (F := Ideal) x0 x1 x2 x3 x4 x5 x6 x7 (ix1 e)
      = ∑ j : Fin 128, centred (yRow x0 x1 x2 x3 x4 x5 x6 x7 e) j * centred (yRow x0 x1 x2 x3 x4 x5 x6 x7 e) j := by
  rw [val_main_v31_apply, val_main_cst_4_apply]
  simp only [Ideal.ofBits_def, Ideal.ofBits_zero_f32, zero_add]
  refine Finset.sum_congr rfl fun k _ => ?_
  rw [show idx_main_v31 (ix1 e) k = ix2 e k from
    funext fun a => by match a with | ⟨0, _⟩ => rfl | ⟨1, _⟩ => rfl, val_main_v30_apply, v29_at]
  rfl

/-- rsqrt (variance + ε), kept as a column, at (e, 0). -/
theorem v39_at (e : Fin 640000) (z : Fin 1) :
    val_main_v39 (F := Ideal) x0 x1 x2 x3 x4 x5 x6 x7 (ix2 e z)
      = Ideal.rsqrt (rowMean (fun q => centred (yRow x0 x1 x2 x3 x4 x5 x6 x7 e) q * centred (yRow x0 x1 x2 x3 x4 x5 x6 x7 e) q)
          + Ideal.ofBits .f32 0x3727C5AC#32) := by
  rw [val_main_v39_apply, val_main_v38_apply, val_main_v37_apply, val_main_cst_6_apply, val_main_v34_apply,
    val_main_v33_apply, val_main_cst_5_apply, val_main_v32_apply,
    show idx_main_v32 (ix2 e z) = ix1 e from funext fun a => by match a with | ⟨0, _⟩ => rfl, v31_at]
  rfl

/-- THE REFERENCE'S RESULT at (e, j) is the row function of edge e's concatenated row. -/
theorem result_at (e : Fin 640000) (j : Fin 128) :
    val_main_v47 (F := Ideal) x0 x1 x2 x3 x4 x5 x6 x7 x8 x9 (ix2 e j)
      = rowOut (cRow x0 x1 x2 x3 e) (W1f x4) (b1f x5) (W2f x6) (b2f x7) (gammaf x8) (betaf x9) j := by
  rw [val_main_v47_apply, val_main_v44_apply, val_main_v41_apply, v36_at, val_main_v40_apply,
    show idx_main_v40 (ix2 e j) = ix2 e (⟨0, Nat.one_pos⟩ : Fin 1) from
      funext fun a => by match a with | ⟨0, _⟩ => rfl | ⟨1, _⟩ => rfl, v39_at,
    val_main_v43_apply, val_main_v42_apply, val_main_v46_apply, val_main_v45_apply]
  unfold rowOut layerNorm
  simp only [Ideal.addf_def, Ideal.mulf_def]
  refine congrArg₂ (· + ·) (congrArg₂ (· * ·) rfl ?_) ?_
  · exact congrArg x8 (funext fun a => by match a with | ⟨0, _⟩ => rfl)
  · exact congrArg x9 (funext fun a => by match a with | ⟨0, _⟩ => rfl)

end Cert.ReferenceIdeal.RefRow

end
-- ==== Proof.Bridge.lean ====
/-
  THE TWO RESULTS ARE ONE ARRAY. The kernel's result array is the whole-array function of the arrays the region finds
  (edge features as launched; the two gathered arrays; W1, W2 narrowed to bf16; b1, b2, γ, β as [1 × n] rows), and the
  reference's result at (e, j) is the row function of edge e's concatenated row. With every index word in [0, 50000)
  the kernel's gathered arrays are the reference's plain gathers, a narrowing is the identity on the extended reals, and
  a vector reshaped to one row reads, at (0, u), the vector at u: so the two arrays agree index by index.
-/
import proofs.«427568_j20486994002443_3_alg».proof.Proof.Blocks
import proofs.«427568_j20486994002443_3_alg».proof.Proof.HostRows
import proofs.«427568_j20486994002443_3_alg».proof.Proof.PreRange
import proofs.«427568_j20486994002443_3_alg».proof.Proof.RefRow

noncomputable section

namespace Cert.Bridge

open Idealize.ShloMosaic Idealize.ShloMosaic.TcCoe Idealize.SL.Sem Idealize.ShloMosaic.ValueIdx Cert.EdgeRow

/-- A vector reshaped to one row reads, at (0, u), the vector at u. -/
theorem row_read {n : Nat} (x : (⟨1, ![n]⟩ : Shape).Idx → EReal) (h : (⟨1, ![n]⟩ : Shape).ShapeCasts ⟨2, ![1, n]⟩) (u : Fin n) :
    shapeCast ⟨2, ![1, n]⟩ x h (ix2 (0 : Fin 1) u) = x (ix1 u) :=
  shapeCast_apply x h (ix2 (0 : Fin 1) u) (ix1 u)
    (by rw [Shape.rowMajor_val_one, Shape.rowMajor_val_two]; show u.val = 0 * n + u.val; omega)

/-- A narrowing of float format is the identity on the extended reals. -/
theorem narrow_id {s : Shape} (X : FVec Ideal s .f32) (h : FTy.bf16.bits < FTy.f32.bits) :
    (truncf .bf16 X h : s.Idx → EReal) = X := rfl

section Arrays

open Cert.ReferenceIdeal.Read

variable (x0 : (⟨Cert.ReferenceIdeal.S640000x128, .f32⟩ : BufTy).Contents (Elt Ideal))
  (x1 : (⟨Cert.ReferenceIdeal.S50000x128, .f32⟩ : BufTy).Contents (Elt Ideal))
  (x2 x3 : (⟨Cert.ReferenceIdeal.S640000, .i32⟩ : BufTy).Contents (Elt Ideal))
  (x4 : (⟨Cert.ReferenceIdeal.S384x256, .f32⟩ : BufTy).Contents (Elt Ideal))
  (x5 : (⟨Cert.ReferenceIdeal.S256, .f32⟩ : BufTy).Contents (Elt Ideal))
  (x6 : (⟨Cert.ReferenceIdeal.S256x128, .f32⟩ : BufTy).Contents (Elt Ideal))
  (x7 x8 x9 : (⟨Cert.ReferenceIdeal.S128, .f32⟩ : BufTy).Contents (Elt Ideal))

/-- For arrays that are what the host stretch leaves when the indices are in range, the kernel's whole-array function
    is the reference's result. -/
theorem Gfun_eq (A0 : Vec Ideal Cert.KernelIdeal.S640000x128 .f32) (A1 A2 : Vec Ideal Cert.KernelIdeal.S640000x128 .bf16)
    (A3 : Vec Ideal Cert.KernelIdeal.S384x256 .bf16) (A4 : Vec Ideal Cert.KernelIdeal.S1x256 .f32)
    (A5 : Vec Ideal Cert.KernelIdeal.S256x128 .bf16) (A6 A7 A8 : Vec Ideal Cert.KernelIdeal.S1x128 .f32)
    (hc5 : Cert.KernelIdeal.S256.ShapeCasts Cert.KernelIdeal.S1x256) (hc7 : Cert.KernelIdeal.S128.ShapeCasts Cert.KernelIdeal.S1x128)
    (h0 : (A0 : Cert.KernelIdeal.S640000x128.Idx → EReal) = x0)
    (h1 : (A1 : Cert.KernelIdeal.S640000x128.Idx → EReal) = val_main_v6 (F := Ideal) x1 x2)
    (h2 : (A2 : Cert.KernelIdeal.S640000x128.Idx → EReal) = val_main_v13 (F := Ideal) x1 x3)
    (h3 : (A3 : Cert.KernelIdeal.S384x256.Idx → EReal) = x4)
    (h4 : (A4 : Cert.KernelIdeal.S1x256.Idx → EReal) = shapeCast Cert.KernelIdeal.S1x256 x5 hc5)
    (h5 : (A5 : Cert.KernelIdeal.S256x128.Idx → EReal) = x6)
    (h6 : (A6 : Cert.KernelIdeal.S1x128.Idx → EReal) = shapeCast Cert.KernelIdeal.S1x128 x7 hc7)
    (h7 : (A7 : Cert.KernelIdeal.S1x128.Idx → EReal) = shapeCast Cert.KernelIdeal.S1x128 x8 hc7)
    (h8 : (A8 : Cert.KernelIdeal.S1x128.Idx → EReal) = shapeCast Cert.KernelIdeal.S1x128 x9 hc7) :
    Cert.KernelIdeal.Blocks.Gfun A0 A1 A2 A3 A4 A5 A6 A7 A8 = val_main_v47 (F := Ideal) x0 x1 x2 x3 x4 x5 x6 x7 x8 x9 := by
  subst h0 h1 h2 h3 h4 h5 h6 h7 h8
  funext i
  obtain ⟨e, j, rfl⟩ : ∃ (e : Fin 640000) (j : Fin 128), i = ix2 e j := ⟨i 0, i 1, eq_ix2 i⟩
  rw [Cert.ReferenceIdeal.RefRow.result_at]
  unfold Cert.KernelIdeal.Blocks.Gfun
  have hb1 : Cert.KernelIdeal.KernelRow.b1f (shapeCast Cert.KernelIdeal.S1x256 x5 hc5) = Cert.ReferenceIdeal.RefRow.b1f x5 :=
    funext fun u => row_read x5 hc5 u
  have hb2 : Cert.KernelIdeal.KernelRow.rowf (shapeCast Cert.KernelIdeal.S1x128 x7 hc7) = Cert.ReferenceIdeal.RefRow.b2f x7 :=
    funext fun u => row_read x7 hc7 u
  have hg : Cert.KernelIdeal.KernelRow.rowf (shapeCast Cert.KernelIdeal.S1x128 x8 hc7) = Cert.ReferenceIdeal.RefRow.gammaf x8 :=
    funext fun u => row_read x8 hc7 u
  have hb : Cert.KernelIdeal.KernelRow.rowf (shapeCast Cert.KernelIdeal.S1x128 x9 hc7) = Cert.ReferenceIdeal.RefRow.betaf x9 :=
    funext fun u => row_read x9 hc7 u
  rw [hb1, hb2, hg, hb]

end Arrays

/-! ## At the arrays the region finds -/

open Cert.KernelIdeal Cert.KernelIdeal.Gen

variable (m : (ℓ : Loc nD τ sig) → Buf (Elt Ideal) ℓ)

/-- UNDER THE PRECONDITION the kernel's result array is the reference's result of the same arguments. -/
theorem result_eq (hpre : Cert.Pre_KernelIdeal m) (c : Dev nD) :
    Cert.KernelIdeal.Blocks.G m c
      = Cert.ReferenceIdeal.Read.val_main_v47 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) := by
  obtain ⟨r2, r3⟩ := Cert.KernelIdeal.PreRange.idx_lt m hpre c
  unfold Cert.KernelIdeal.Blocks.G
  exact Gfun_eq _ _ _ _ _ _ _ _ _ _ _ _ _ _ _ _ _ _ _ shapeCasts_S256_S1x256 shapeCasts_S128_S1x128
    (V_main_arg0 m c)
    ((Cert.KernelIdeal.HostRows.V_src m c).trans ((narrow_id _ _).trans (Cert.KernelIdeal.HostRows.takeRows_eq _ r2 _)))
    ((Cert.KernelIdeal.HostRows.V_dst m c).trans ((narrow_id _ _).trans (Cert.KernelIdeal.HostRows.takeRows_eq _ r3 _)))
    ((Cert.KernelIdeal.HostRows.V_w1 m c).trans (narrow_id _ _))
    (Cert.KernelIdeal.HostRows.V_b1 m c)
    ((Cert.KernelIdeal.HostRows.V_w2 m c).trans (narrow_id _ _))
    (Cert.KernelIdeal.HostRows.V_b2 m c)
    (Cert.KernelIdeal.HostRows.V_gamma m c)
    (Cert.KernelIdeal.HostRows.V_beta m c)

end Cert.Bridge

end
-- ==== Proof.lean ====
/-
  An edge MLP over a graph: for each of 640000 edges, the edge's 128 features are laid beside the 128 features of its
  source node and of its destination node (both rows gathered from a [50000 × 128] table by index), the 384-wide row
  goes through Linear(384, 256), SiLU, Linear(256, 128), and the 128-wide result is LayerNorm'd with scale γ and shift β.
  The kernel gathers the rows on the host (jnp.take, narrowed to bf16), then runs the two layers and the normalisation
  in one pipelined region over 250 blocks of 2560 edges; the reference does the whole computation with array
  operations. On the extended reals the two compute the same array:

  * per edge both apply the same operations in the same order (Proof/RowSpec.lean: `rowOut`), so no law of
    arithmetic is needed and finiteness of the float inputs is never used;
  * the reference at (e, j) is `rowOut` of edge e's concatenated row (Proof/RefRow.lean), and so is the block the
    kernel's body stores (Proof/KernelRow.lean); the 250 blocks tile the result (Proof/Blocks.lean);
  * jnp.take differs from plain indexing only outside the table: it fills a row whose index is out of range with NaN,
    where plain indexing clamps. The precondition puts every index in [0, 50000) (Proof/PreRange.lean), and there the
    two gathers are one term (Proof/HostRows.lean, Proof/Bridge.lean).

  The three frames are the generated ones (the reference's is its generated run with the result dropped); the
  idealization rewrote nothing, so `preserves` is `True`.
-/
import proofs.«427568_j20486994002443_3_alg».proof.Defs
import proofs.«427568_j20486994002443_3_alg».proof.Proof.Gen.Kernel
import proofs.«427568_j20486994002443_3_alg».proof.Proof.Gen.Kernel.Skeleton
import proofs.«427568_j20486994002443_3_alg».proof.Proof.Gen.Kernel.Launch
import proofs.«427568_j20486994002443_3_alg».proof.Proof.Gen.Kernel.Points
import proofs.«427568_j20486994002443_3_alg».proof.Proof.Gen.Kernel.Frame
import proofs.«427568_j20486994002443_3_alg».proof.Proof.Gen.KernelIdeal
import proofs.«427568_j20486994002443_3_alg».proof.Proof.Gen.KernelIdeal.Skeleton
import proofs.«427568_j20486994002443_3_alg».proof.Proof.Gen.KernelIdeal.Launch
import proofs.«427568_j20486994002443_3_alg».proof.Proof.Gen.KernelIdeal.Points
import proofs.«427568_j20486994002443_3_alg».proof.Proof.Gen.KernelIdeal.Frame
import proofs.«427568_j20486994002443_3_alg».proof.Proof.Gen.ReferenceIdeal
import proofs.«427568_j20486994002443_3_alg».proof.Proof.Gen.Pre_finite_inputs
import proofs.«427568_j20486994002443_3_alg».proof.Proof.Gen.KernelIdeal.Value
import proofs.«427568_j20486994002443_3_alg».proof.Proof.Gen.ReferenceIdeal.Run
import proofs.«427568_j20486994002443_3_alg».proof.Proof.Gen.ReferenceIdeal.Read
import proofs.«427568_j20486994002443_3_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- The idealized kernel runs and leaves its arguments as they were. -/
theorem frame_ki : Cert.frame_KernelIdeal := fun m ρ _ => Cert.KernelIdeal.Gen.frame m ρ

/-- The idealized reference runs and leaves its arguments as they were: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, with every index in range, the idealized kernel and the idealized
    reference both end with the result array `Blocks.G`: the kernel because its 250 blocks tile that array, the
    reference because its result is the same function of the same arguments (`Bridge.result_eq`). -/
theorem algebraic : Cert.algebraic_KernelIdeal_ReferenceIdeal := by
  intro m ρ m' ρ' hpre hagree
  refine ⟨fun c => Cert.KernelIdeal.Blocks.G m c, ?_, ?_⟩
  · exact (θ_run Cert.KernelIdeal.defs _ _).mono
      (fun r h c => ⟨(h c).1.trans (Cert.KernelIdeal.Blocks.final m c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v47_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]
    exact (Cert.Bridge.result_eq m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
